-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6)) (m ((c.tc : Thread Cert.Kernel.nD Cert.Kernel.τ).loc Cert.Kernel.main_arg7)) (m ((c.tc : Thread Cert.Kernel.nD Cert.Kernel.τ).loc Cert.Kernel.main_arg8)) (m ((c.tc : Thread Cert.Kernel.nD Cert.Kernel.τ).loc Cert.Kernel.main_arg9))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7)
      ∧ r.2.mem ((c.tc : Thread Cert.Kernel.nD Cert.Kernel.τ).loc Cert.Kernel.main_arg8) = m ((c.tc : Thread Cert.Kernel.nD Cert.Kernel.τ).loc Cert.Kernel.main_arg8)
      ∧ r.2.mem ((c.tc : Thread Cert.Kernel.nD Cert.Kernel.τ).loc Cert.Kernel.main_arg9) = m ((c.tc : Thread Cert.Kernel.nD Cert.Kernel.τ).loc Cert.Kernel.main_arg9))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
      ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8)
      ∧ r.2.mem ((c.tc : Thread Cert.ReferenceIdeal.nD Cert.ReferenceIdeal.τ).loc Cert.ReferenceIdeal.main_arg9) = m ((c.tc : Thread Cert.ReferenceIdeal.nD Cert.ReferenceIdeal.τ).loc Cert.ReferenceIdeal.main_arg9))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
      ∧ m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)
      ∧ m' ((c.tc : Thread Cert.ReferenceIdeal.nD Cert.ReferenceIdeal.τ).loc Cert.ReferenceIdeal.main_arg9) = m ((c.tc : Thread Cert.KernelIdeal.nD Cert.KernelIdeal.τ).loc Cert.KernelIdeal.main_arg9)) →
    ∃ (v0 : (c : Dev Cert.KernelIdeal.nD) → Buf (Elt Ideal) ((c.tc : Thread Cert.KernelIdeal.nD Cert.KernelIdeal.τ).loc Cert.KernelIdeal.main_v54)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v54) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
          ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
          ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v64) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7)
          ∧ r.2.mem ((c.tc : Thread Cert.ReferenceIdeal.nD Cert.ReferenceIdeal.τ).loc Cert.ReferenceIdeal.main_arg8) = m' ((c.tc : Thread Cert.ReferenceIdeal.nD Cert.ReferenceIdeal.τ).loc Cert.ReferenceIdeal.main_arg8)
          ∧ r.2.mem ((c.tc : Thread Cert.ReferenceIdeal.nD Cert.ReferenceIdeal.τ).loc Cert.ReferenceIdeal.main_arg9) = m' ((c.tc : Thread Cert.ReferenceIdeal.nD Cert.ReferenceIdeal.τ).loc Cert.ReferenceIdeal.main_arg9))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S100000x128 : Shape := ⟨2, ![100000, 128]⟩
abbrev S2x1600000 : Shape := ⟨2, ![2, 1600000]⟩
abbrev S128x128 : Shape := ⟨2, ![128, 128]⟩
abbrev S128 : Shape := ⟨1, ![128]⟩
abbrev S128x512 : Shape := ⟨2, ![128, 512]⟩
abbrev S512 : Shape := ⟨1, ![512]⟩
abbrev S512x256 : Shape := ⟨2, ![512, 256]⟩
abbrev S256 : Shape := ⟨1, ![256]⟩
abbrev S256x1 : Shape := ⟨2, ![256, 1]⟩
abbrev S1 : Shape := ⟨1, ![1]⟩
abbrev S_ : Shape := ⟨0, ![]⟩

class Facts : Prop where
  bcast_S_S100000x128 : S_.BroadcastsInDim S100000x128 (![] : Fin 0 → Fin S100000x128.rank)
  reducesTo_S100000x128_S_d0_1 : S100000x128.ReducesTo [0, 1] S_
  h_S_ : 0 < S_.numel
  bcast_S_S128x128 : S_.BroadcastsInDim S128x128 (![] : Fin 0 → Fin S128x128.rank)
  reducesTo_S128x128_S_d0_1 : S128x128.ReducesTo [0, 1] S_
  bcast_S_S128 : S_.BroadcastsInDim S128 (![] : Fin 0 → Fin S128.rank)
  reducesTo_S128_S_d0 : S128.ReducesTo [0] S_
  bcast_S_S128x512 : S_.BroadcastsInDim S128x512 (![] : Fin 0 → Fin S128x512.rank)
  reducesTo_S128x512_S_d0_1 : S128x512.ReducesTo [0, 1] S_
  bcast_S_S512 : S_.BroadcastsInDim S512 (![] : Fin 0 → Fin S512.rank)
  reducesTo_S512_S_d0 : S512.ReducesTo [0] S_
  bcast_S_S512x256 : S_.BroadcastsInDim S512x256 (![] : Fin 0 → Fin S512x256.rank)
  reducesTo_S512x256_S_d0_1 : S512x256.ReducesTo [0, 1] S_
  bcast_S_S256 : S_.BroadcastsInDim S256 (![] : Fin 0 → Fin S256.rank)
  reducesTo_S256_S_d0 : S256.ReducesTo [0] S_
  bcast_S_S256x1 : S_.BroadcastsInDim S256x1 (![] : Fin 0 → Fin S256x1.rank)
  reducesTo_S256x1_S_d0_1 : S256x1.ReducesTo [0, 1] S_
  bcast_S_S1 : S_.BroadcastsInDim S1 (![] : Fin 0 → Fin S1.rank)
  reducesTo_S1_S_d0 : S1.ReducesTo [0] S_

variable [Facts]

def fn_part2 {F : FTy → Type} [FloatOps F] (main_arg8 : FVec F S256x1 .f32) (main_arg9 : FVec F S1 .f32) (main_v33 : IVec S_ 1) : IVec S_ 1 :=
  let main_v34 : FVec F S256x1 .f32 := Host.absf main_arg8
  let main_cst_12 : FVec F S_ .f32 := constant S_ .f32 0x7F800000#32
  let main_v35 : FVec F S256x1 .f32 := broadcastInDim S256x1 ![] bcast_S_S256x1 main_cst_12
  let main_v36 : IVec S256x1 1 := cmpf .olt main_v34 main_v35
  let main_c_13 : IVec S_ 1 := constantI S_ 1 1#1
  let main_v37 : IVec S_ 1 := (fun x v => Host.reduce IntOp.andi x v reducesTo_S256x1_S_d0_1 h_S_) main_v36 main_c_13
  let main_v38 : IVec S_ 1 := andi main_v33 main_v37
  let main_v39 : FVec F S1 .f32 := Host.absf main_arg9
  let main_cst_14 : FVec F S_ .f32 := constant S_ .f32 0x7F800000#32
  let main_v40 : FVec F S1 .f32 := broadcastInDim S1 ![] bcast_S_S1 main_cst_14
  let main_v41 : IVec S1 1 := cmpf .olt main_v39 main_v40
  let main_c_15 : IVec S_ 1 := constantI S_ 1 1#1
  let main_v42 : IVec S_ 1 := (fun x v => Host.reduce IntOp.andi x v reducesTo_S1_S_d0 h_S_) main_v41 main_c_15
  let main_v43 : IVec S_ 1 := andi main_v38 main_v42
  main_v43

def fn_part1 {F : FTy → Type} [FloatOps F] (main_arg5 : FVec F S512 .f32) (main_arg6 : FVec F S512x256 .f32) (main_arg7 : FVec F S256 .f32) (main_arg8 : FVec F S256x1 .f32) (main_arg9 : FVec F S1 .f32) (main_v13 : IVec S_ 1) (main_v16 : IVec S128x512 1) : IVec S_ 1 :=
  let main_c_5 : IVec S_ 1 := constantI S_ 1 1#1
  let main_v17 : IVec S_ 1 := (fun x v => Host.reduce IntOp.andi x v reducesTo_S128x512_S_d0_1 h_S_) main_v16 main_c_5
  let main_v18 : IVec S_ 1 := andi main_v13 main_v17
  let main_v19 : FVec F S512 .f32 := Host.absf main_arg5
  let main_cst_6 : FVec F S_ .f32 := constant S_ .f32 0x7F800000#32
  let main_v20 : FVec F S512 .f32 := broadcastInDim S512 ![] bcast_S_S512 main_cst_6
  let main_v21 : IVec S512 1 := cmpf .olt main_v19 main_v20
  let main_c_7 : IVec S_ 1 := constantI S_ 1 1#1
  let main_v22 : IVec S_ 1 := (fun x v => Host.reduce IntOp.andi x v reducesTo_S512_S_d0 h_S_) main_v21 main_c_7
  let main_v23 : IVec S_ 1 := andi main_v18 main_v22
  let main_v24 : FVec F S512x256 .f32 := Host.absf main_arg6
  let main_cst_8 : FVec F S_ .f32 := constant S_ .f32 0x7F800000#32
  let main_v25 : FVec F S512x256 .f32 := broadcastInDim S512x256 ![] bcast_S_S512x256 main_cst_8
  let main_v26 : IVec S512x256 1 := cmpf .olt main_v24 main_v25
  let main_c_9 : IVec S_ 1 := constantI S_ 1 1#1
  let main_v27 : IVec S_ 1 := (fun x v => Host.reduce IntOp.andi x v reducesTo_S512x256_S_d0_1 h_S_) main_v26 main_c_9
  let main_v28 : IVec S_ 1 := andi main_v23 main_v27
  let main_v29 : FVec F S256 .f32 := Host.absf main_arg7
  let main_cst_10 : FVec F S_ .f32 := constant S_ .f32 0x7F800000#32
  let main_v30 : FVec F S256 .f32 := broadcastInDim S256 ![] bcast_S_S256 main_cst_10
  let main_v31 : IVec S256 1 := cmpf .olt main_v29 main_v30
  let main_c_11 : IVec S_ 1 := constantI S_ 1 1#1
  let main_v32 : IVec S_ 1 := (fun x v => Host.reduce IntOp.andi x v reducesTo_S256_S_d0 h_S_) main_v31 main_c_11
  let main_v33 : IVec S_ 1 := andi main_v28 main_v32
  fn_part2 (F := F) main_arg8 main_arg9 main_v33

def fn {F : FTy → Type} [FloatOps F] (main_arg0 : FVec F S100000x128 .f32) (main_arg1 : IVec S2x1600000 32) (main_arg2 : FVec F S128x128 .f32) (main_arg3 : FVec F S128 .f32) (main_arg4 : FVec F S128x512 .f32) (main_arg5 : FVec F S512 .f32) (main_arg6 : FVec F S512x256 .f32) (main_arg7 : FVec F S256 .f32) (main_arg8 : FVec F S256x1 .f32) (main_arg9 : FVec F S1 .f32) : IVec S_ 1 :=
  let main_v0 : FVec F S100000x128 .f32 := Host.absf main_arg0
  let main_cst : FVec F S_ .f32 := constant S_ .f32 0x7F800000#32
  let main_v1 : FVec F S100000x128 .f32 := broadcastInDim S100000x128 ![] bcast_S_S100000x128 main_cst
  let main_v2 : IVec S100000x128 1 := cmpf .olt main_v0 main_v1
  let main_c : IVec S_ 1 := constantI S_ 1 1#1
  let main_v3 : IVec S_ 1 := (fun x v => Host.reduce IntOp.andi x v reducesTo_S100000x128_S_d0_1 h_S_) main_v2 main_c
  let main_v4 : FVec F S128x128 .f32 := Host.absf main_arg2
  let main_cst_0 : FVec F S_ .f32 := constant S_ .f32 0x7F800000#32
  let main_v5 : FVec F S128x128 .f32 := broadcastInDim S128x128 ![] bcast_S_S128x128 main_cst_0
  let main_v6 : IVec S128x128 1 := cmpf .olt main_v4 main_v5
  let main_c_1 : IVec S_ 1 := constantI S_ 1 1#1
  let main_v7 : IVec S_ 1 := (fun x v => Host.reduce IntOp.andi x v reducesTo_S128x128_S_d0_1 h_S_) main_v6 main_c_1
  let main_v8 : IVec S_ 1 := andi main_v3 main_v7
  let main_v9 : FVec F S128 .f32 := Host.absf main_arg3
  let main_cst_2 : FVec F S_ .f32 := constant S_ .f32 0x7F800000#32
  let main_v10 : FVec F S128 .f32 := broadcastInDim S128 ![] bcast_S_S128 main_cst_2
  let main_v11 : IVec S128 1 := cmpf .olt main_v9 main_v10
  let main_c_3 : IVec S_ 1 := constantI S_ 1 1#1
  let main_v12 : IVec S_ 1 := (fun x v => Host.reduce IntOp.andi x v reducesTo_S128_S_d0 h_S_) main_v11 main_c_3
  let main_v13 : IVec S_ 1 := andi main_v8 main_v12
  let main_v14 : FVec F S128x512 .f32 := Host.absf main_arg4
  let main_cst_4 : FVec F S_ .f32 := constant S_ .f32 0x7F800000#32
  let main_v15 : FVec F S128x512 .f32 := broadcastInDim S128x512 ![] bcast_S_S128x512 main_cst_4
  let main_v16 : IVec S128x512 1 := cmpf .olt main_v14 main_v15
  fn_part1 (F := F) main_arg5 main_arg6 main_arg7 main_arg8 main_arg9 main_v13 main_v16
-- ==== Kernel.lean ====
abbrev S100000x128 : Shape := ⟨2, ![100000, 128]⟩
abbrev S2x1600000 : Shape := ⟨2, ![2, 1600000]⟩
abbrev S128x128 : Shape := ⟨2, ![128, 128]⟩
abbrev S128 : Shape := ⟨1, ![128]⟩
abbrev S128x512 : Shape := ⟨2, ![128, 512]⟩
abbrev S512 : Shape := ⟨1, ![512]⟩
abbrev S512x256 : Shape := ⟨2, ![512, 256]⟩
abbrev S256 : Shape := ⟨1, ![256]⟩
abbrev S256x1 : Shape := ⟨2, ![256, 1]⟩
abbrev S1 : Shape := ⟨1, ![1]⟩
abbrev S100000 : Shape := ⟨1, ![100000]⟩
abbrev S1x1600000 : Shape := ⟨2, ![1, 1600000]⟩
abbrev S1600000 : Shape := ⟨1, ![1600000]⟩
abbrev S1700000 : Shape := ⟨1, ![1700000]⟩
abbrev S_ : Shape := ⟨0, ![]⟩
abbrev S1700000x1 : Shape := ⟨2, ![1700000, 1]⟩
abbrev S2000x128 : Shape := ⟨2, ![2000, 128]⟩
abbrev S1700000x128 : Shape := ⟨2, ![1700000, 128]⟩
abbrev S1x128 : Shape := ⟨2, ![1, 128]⟩
abbrev S1x512 : Shape := ⟨2, ![1, 512]⟩
abbrev S1x256 : Shape := ⟨2, ![1, 256]⟩
abbrev S1x1 : Shape := ⟨2, ![1, 1]⟩
abbrev S100000x1 : Shape := ⟨2, ![100000, 1]⟩
abbrev S2000x1 : Shape := ⟨2, ![2000, 1]⟩
abbrev S2000x512 : Shape := ⟨2, ![2000, 512]⟩
abbrev S2000x256 : Shape := ⟨2, ![2000, 256]⟩

abbrev nBuf : Space → Nat
  | .hbm => 79
  | .vmem => 18
  | .smem => 0
  | _ => 0

abbrev bufTy : (tb : Table) → Fin (tcTables nBuf tb) → BufTy
  | .hbm, ⟨0, _⟩ => ⟨S100000x128, .f32⟩
  | .hbm, ⟨1, _⟩ => ⟨S2x1600000, .i32⟩
  | .hbm, ⟨2, _⟩ => ⟨S128x128, .f32⟩
  | .hbm, ⟨3, _⟩ => ⟨S128, .f32⟩
  | .hbm, ⟨4, _⟩ => ⟨S128x512, .f32⟩
  | .hbm, ⟨5, _⟩ => ⟨S512, .f32⟩
  | .hbm, ⟨6, _⟩ => ⟨S512x256, .f32⟩
  | .hbm, ⟨7, _⟩ => ⟨S256, .f32⟩
  | .hbm, ⟨8, _⟩ => ⟨S256x1, .f32⟩
  | .hbm, ⟨9, _⟩ => ⟨S1, .f32⟩
  | .hbm, ⟨10, _⟩ => ⟨S100000, .i32⟩
  | .hbm, ⟨11, _⟩ => ⟨S1x1600000, .i32⟩
  | .hbm, ⟨12, _⟩ => ⟨S1600000, .i32⟩
  | .hbm, ⟨13, _⟩ => ⟨S1700000, .i32⟩
  | .hbm, ⟨14, _⟩ => ⟨S1x1600000, .i32⟩
  | .hbm, ⟨15, _⟩ => ⟨S1600000, .i32⟩
  | .hbm, ⟨16, _⟩ => ⟨S1700000, .i32⟩
  | .hbm, ⟨17, _⟩ => ⟨S_, .f32⟩
  | .hbm, ⟨18, _⟩ => ⟨S1700000, .f32⟩
  | .hbm, ⟨19, _⟩ => ⟨S_, .f32⟩
  | .hbm, ⟨20, _⟩ => ⟨S100000, .f32⟩
  | .hbm, ⟨21, _⟩ => ⟨S1700000x1, .i32⟩
  | .hbm, ⟨22, _⟩ => ⟨S100000, .f32⟩
  | .hbm, ⟨23, _⟩ => ⟨S_, .f32⟩
  | .hbm, ⟨24, _⟩ => ⟨S100000, .f32⟩
  | .hbm, ⟨25, _⟩ => ⟨S100000, .i1⟩
  | .hbm, ⟨26, _⟩ => ⟨S_, .f32⟩
  | .hbm, ⟨27, _⟩ => ⟨S100000, .f32⟩
  | .hbm, ⟨28, _⟩ => ⟨S100000, .f32⟩
  | .hbm, ⟨29, _⟩ => ⟨S100000, .f32⟩
  | .hbm, ⟨30, _⟩ => ⟨S_, .f32⟩
  | .hbm, ⟨31, _⟩ => ⟨S_, .f32⟩
  | .hbm, ⟨32, _⟩ => ⟨S100000, .f32⟩
  | .hbm, ⟨33, _⟩ => ⟨S100000, .f32⟩
  | .hbm, ⟨34, _⟩ => ⟨S_, .i32⟩
  | .hbm, ⟨35, _⟩ => ⟨S1700000, .i32⟩
  | .hbm, ⟨36, _⟩ => ⟨S1700000, .i1⟩
  | .hbm, ⟨37, _⟩ => ⟨S_, .i32⟩
  | .hbm, ⟨38, _⟩ => ⟨S1700000, .i32⟩
  | .hbm, ⟨39, _⟩ => ⟨S1700000, .i32⟩
  | .hbm, ⟨40, _⟩ => ⟨S1700000, .i32⟩
  | .hbm, ⟨41, _⟩ => ⟨S1700000x1, .i32⟩
  | .hbm, ⟨42, _⟩ => ⟨S1700000, .f32⟩
  | .hbm, ⟨43, _⟩ => ⟨S_, .i32⟩
  | .hbm, ⟨44, _⟩ => ⟨S1700000, .i32⟩
  | .hbm, ⟨45, _⟩ => ⟨S1700000, .i1⟩
  | .hbm, ⟨46, _⟩ => ⟨S_, .i32⟩
  | .hbm, ⟨47, _⟩ => ⟨S1700000, .i32⟩
  | .hbm, ⟨48, _⟩ => ⟨S1700000, .i32⟩
  | .hbm, ⟨49, _⟩ => ⟨S1700000, .i32⟩
  | .hbm, ⟨50, _⟩ => ⟨S1700000x1, .i32⟩
  | .hbm, ⟨51, _⟩ => ⟨S1700000, .f32⟩
  | .hbm, ⟨52, _⟩ => ⟨S1700000, .f32⟩
  | .hbm, ⟨53, _⟩ => ⟨S128x128, .bf16⟩
  | .hbm, ⟨54, _⟩ => ⟨S100000x128, .f32⟩
  | .hbm, ⟨55, _⟩ => ⟨S_, .i32⟩
  | .hbm, ⟨56, _⟩ => ⟨S1700000, .i32⟩
  | .hbm, ⟨57, _⟩ => ⟨S1700000, .i1⟩
  | .hbm, ⟨58, _⟩ => ⟨S_, .i32⟩
  | .hbm, ⟨59, _⟩ => ⟨S1700000, .i32⟩
  | .hbm, ⟨60, _⟩ => ⟨S1700000, .i32⟩
  | .hbm, ⟨61, _⟩ => ⟨S1700000, .i32⟩
  | .hbm, ⟨62, _⟩ => ⟨S1700000x1, .i32⟩
  | .hbm, ⟨63, _⟩ => ⟨S1700000x128, .f32⟩
  | .hbm, ⟨64, _⟩ => ⟨S1700000x1, .f32⟩
  | .hbm, ⟨65, _⟩ => ⟨S1700000x128, .f32⟩
  | .hbm, ⟨66, _⟩ => ⟨S1700000x128, .f32⟩
  | .hbm, ⟨67, _⟩ => ⟨S_, .f32⟩
  | .hbm, ⟨68, _⟩ => ⟨S100000x128, .f32⟩
  | .hbm, ⟨69, _⟩ => ⟨S1700000x1, .i32⟩
  | .hbm, ⟨70, _⟩ => ⟨S100000x128, .f32⟩
  | .hbm, ⟨71, _⟩ => ⟨S1x128, .f32⟩
  | .hbm, ⟨72, _⟩ => ⟨S1x512, .f32⟩
  | .hbm, ⟨73, _⟩ => ⟨S1x256, .f32⟩
  | .hbm, ⟨74, _⟩ => ⟨S1x1, .f32⟩
  | .hbm, ⟨75, _⟩ => ⟨S128x512, .bf16⟩
  | .hbm, ⟨76, _⟩ => ⟨S512x256, .bf16⟩
  | .hbm, ⟨77, _⟩ => ⟨S256x1, .bf16⟩
  | .hbm, ⟨78, _⟩ => ⟨S100000x1, .f32⟩
  | .local _ .vmem, ⟨0, _⟩ => ⟨S2000x128, .f32⟩
  | .local _ .vmem, ⟨1, _⟩ => ⟨S2000x128, .f32⟩
  | .local _ .vmem, ⟨2, _⟩ => ⟨S128x128, .bf16⟩
  | .local _ .vmem, ⟨3, _⟩ => ⟨S2000x128, .f32⟩
  | .local _ .vmem, ⟨4, _⟩ => ⟨S2000x128, .f32⟩
  | .local _ .vmem, ⟨5, _⟩ => ⟨S2000x128, .f32⟩
  | .local _ .vmem, ⟨6, _⟩ => ⟨S2000x128, .f32⟩
  | .local _ .vmem, ⟨7, _⟩ => ⟨S2000x128, .f32⟩
  | .local _ .vmem, ⟨8, _⟩ => ⟨S2000x128, .f32⟩
  | .local _ .vmem, ⟨9, _⟩ => ⟨S1x128, .f32⟩
  | .local _ .vmem, ⟨10, _⟩ => ⟨S128x512, .bf16⟩
  | .local _ .vmem, ⟨11, _⟩ => ⟨S1x512, .f32⟩
  | .local _ .vmem, ⟨12, _⟩ => ⟨S512x256, .bf16⟩
  | .local _ .vmem, ⟨13, _⟩ => ⟨S1x256, .f32⟩
  | .local _ .vmem, ⟨14, _⟩ => ⟨S256x1, .bf16⟩
  | .local _ .vmem, ⟨15, _⟩ => ⟨S1x1, .f32⟩
  | .local _ .vmem, ⟨16, _⟩ => ⟨S2000x1, .f32⟩
  | .local _ .vmem, ⟨17, _⟩ => ⟨S2000x1, .f32⟩
  | _, _ => ⟨S100000x128, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | _, _ => false

abbrev semScoped : Fin 0 → Bool
  | ⟨_, h⟩ => absurd h (Nat.not_lt_zero _)

abbrev dmaSemScoped : Fin 18 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | _ => false

abbrev sig : RefSig :=
  ofTc nBuf bufTy 0 18 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_v0 : Ref sig .tc := ⟨.hbm, 10, rfl⟩
abbrev main_v1 : Ref sig .tc := ⟨.hbm, 11, rfl⟩
abbrev main_v2 : Ref sig .tc := ⟨.hbm, 12, rfl⟩
abbrev main_v3 : Ref sig .tc := ⟨.hbm, 13, rfl⟩
abbrev main_v4 : Ref sig .tc := ⟨.hbm, 14, rfl⟩
abbrev main_v5 : Ref sig .tc := ⟨.hbm, 15, rfl⟩
abbrev main_v6 : Ref sig .tc := ⟨.hbm, 16, rfl⟩
abbrev main_cst : Ref sig .tc := ⟨.hbm, 17, rfl⟩
abbrev main_v7 : Ref sig .tc := ⟨.hbm, 18, rfl⟩
abbrev main_cst_0 : Ref sig .tc := ⟨.hbm, 19, rfl⟩
abbrev main_v8 : Ref sig .tc := ⟨.hbm, 20, rfl⟩
abbrev main_v9 : Ref sig .tc := ⟨.hbm, 21, rfl⟩
abbrev main_v10 : Ref sig .tc := ⟨.hbm, 22, rfl⟩
abbrev main_cst_1 : Ref sig .tc := ⟨.hbm, 23, rfl⟩
abbrev main_v11 : Ref sig .tc := ⟨.hbm, 24, rfl⟩
abbrev main_v12 : Ref sig .tc := ⟨.hbm, 25, rfl⟩
abbrev main_cst_2 : Ref sig .tc := ⟨.hbm, 26, rfl⟩
abbrev main_v13 : Ref sig .tc := ⟨.hbm, 27, rfl⟩
abbrev main_v14 : Ref sig .tc := ⟨.hbm, 28, rfl⟩
abbrev main_v15 : Ref sig .tc := ⟨.hbm, 29, rfl⟩
abbrev main_cst_3 : Ref sig .tc := ⟨.hbm, 30, rfl⟩
abbrev main_call0_v0 : Ref sig .tc := ⟨.hbm, 31, rfl⟩
abbrev main_call0_v1 : Ref sig .tc := ⟨.hbm, 32, rfl⟩
abbrev main_v16 : Ref sig .tc := ⟨.hbm, 33, rfl⟩
abbrev main_c : Ref sig .tc := ⟨.hbm, 34, rfl⟩
abbrev main_v17 : Ref sig .tc := ⟨.hbm, 35, rfl⟩
abbrev main_v18 : Ref sig .tc := ⟨.hbm, 36, rfl⟩
abbrev main_c_4 : Ref sig .tc := ⟨.hbm, 37, rfl⟩
abbrev main_v19 : Ref sig .tc := ⟨.hbm, 38, rfl⟩
abbrev main_v20 : Ref sig .tc := ⟨.hbm, 39, rfl⟩
abbrev main_v21 : Ref sig .tc := ⟨.hbm, 40, rfl⟩
abbrev main_v22 : Ref sig .tc := ⟨.hbm, 41, rfl⟩
abbrev main_v23 : Ref sig .tc := ⟨.hbm, 42, rfl⟩
abbrev main_c_5 : Ref sig .tc := ⟨.hbm, 43, rfl⟩
abbrev main_v24 : Ref sig .tc := ⟨.hbm, 44, rfl⟩
abbrev main_v25 : Ref sig .tc := ⟨.hbm, 45, rfl⟩
abbrev main_c_6 : Ref sig .tc := ⟨.hbm, 46, rfl⟩
abbrev main_v26 : Ref sig .tc := ⟨.hbm, 47, rfl⟩
abbrev main_v27 : Ref sig .tc := ⟨.hbm, 48, rfl⟩
abbrev main_v28 : Ref sig .tc := ⟨.hbm, 49, rfl⟩
abbrev main_v29 : Ref sig .tc := ⟨.hbm, 50, rfl⟩
abbrev main_v30 : Ref sig .tc := ⟨.hbm, 51, rfl⟩
abbrev main_v31 : Ref sig .tc := ⟨.hbm, 52, rfl⟩
abbrev main_v32 : Ref sig .tc := ⟨.hbm, 53, rfl⟩
abbrev main_v33 : Ref sig .tc := ⟨.hbm, 54, rfl⟩
abbrev main_c_7 : Ref sig .tc := ⟨.hbm, 55, rfl⟩
abbrev main_v34 : Ref sig .tc := ⟨.hbm, 56, rfl⟩
abbrev main_v35 : Ref sig .tc := ⟨.hbm, 57, rfl⟩
abbrev main_c_8 : Ref sig .tc := ⟨.hbm, 58, rfl⟩
abbrev main_v36 : Ref sig .tc := ⟨.hbm, 59, rfl⟩
abbrev main_v37 : Ref sig .tc := ⟨.hbm, 60, rfl⟩
abbrev main_v38 : Ref sig .tc := ⟨.hbm, 61, rfl⟩
abbrev main_v39 : Ref sig .tc := ⟨.hbm, 62, rfl⟩
abbrev main_v40 : Ref sig .tc := ⟨.hbm, 63, rfl⟩
abbrev main_v41 : Ref sig .tc := ⟨.hbm, 64, rfl⟩
abbrev main_v42 : Ref sig .tc := ⟨.hbm, 65, rfl⟩
abbrev main_v43 : Ref sig .tc := ⟨.hbm, 66, rfl⟩
abbrev main_cst_9 : Ref sig .tc := ⟨.hbm, 67, rfl⟩
abbrev main_v44 : Ref sig .tc := ⟨.hbm, 68, rfl⟩
abbrev main_v45 : Ref sig .tc := ⟨.hbm, 69, rfl⟩
abbrev main_v46 : Ref sig .tc := ⟨.hbm, 70, rfl⟩
abbrev main_v47 : Ref sig .tc := ⟨.hbm, 71, rfl⟩
abbrev main_v48 : Ref sig .tc := ⟨.hbm, 72, rfl⟩
abbrev main_v49 : Ref sig .tc := ⟨.hbm, 73, rfl⟩
abbrev main_v50 : Ref sig .tc := ⟨.hbm, 74, rfl⟩
abbrev main_v51 : Ref sig .tc := ⟨.hbm, 75, rfl⟩
abbrev main_v52 : Ref sig .tc := ⟨.hbm, 76, rfl⟩
abbrev main_v53 : Ref sig .tc := ⟨.hbm, 77, rfl⟩
abbrev main_v54 : Ref sig .tc := ⟨.hbm, 78, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc1_stg0_0 : Ref sig .tc := ⟨.vmem, 5, rfl⟩
abbrev cc1_stg0_1 : Ref sig .tc := ⟨.vmem, 6, rfl⟩
abbrev cc1_stg1_0 : Ref sig .tc := ⟨.vmem, 7, rfl⟩
abbrev cc1_stg1_1 : Ref sig .tc := ⟨.vmem, 8, rfl⟩
abbrev cc1_stg2_0 : Ref sig .tc := ⟨.vmem, 9, rfl⟩
abbrev cc1_stg3_0 : Ref sig .tc := ⟨.vmem, 10, rfl⟩
abbrev cc1_stg4_0 : Ref sig .tc := ⟨.vmem, 11, rfl⟩
abbrev cc1_stg5_0 : Ref sig .tc := ⟨.vmem, 12, rfl⟩
abbrev cc1_stg6_0 : Ref sig .tc := ⟨.vmem, 13, rfl⟩
abbrev cc1_stg7_0 : Ref sig .tc := ⟨.vmem, 14, rfl⟩
abbrev cc1_stg8_0 : Ref sig .tc := ⟨.vmem, 15, rfl⟩
abbrev cc1_stg9_0 : Ref sig .tc := ⟨.vmem, 16, rfl⟩
abbrev cc1_stg9_1 : Ref sig .tc := ⟨.vmem, 17, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc1_sem0_0 : DmaSem sig := 5
abbrev cc1_sem0_1 : DmaSem sig := 6
abbrev cc1_sem1_0 : DmaSem sig := 7
abbrev cc1_sem1_1 : DmaSem sig := 8
abbrev cc1_sem2_0 : DmaSem sig := 9
abbrev cc1_sem3_0 : DmaSem sig := 10
abbrev cc1_sem4_0 : DmaSem sig := 11
abbrev cc1_sem5_0 : DmaSem sig := 12
abbrev cc1_sem6_0 : DmaSem sig := 13
abbrev cc1_sem7_0 : DmaSem sig := 14
abbrev cc1_sem8_0 : DmaSem sig := 15
abbrev cc1_sem9_0 : DmaSem sig := 16
abbrev cc1_sem9_1 : DmaSem sig := 17

abbrev nD : Nat := 1
abbrev τ : Topo := Topo.v7x

variable {F : FTy → Type} [FloatOps F]

abbrev grid0 : Pipeline.Grid := ⟨1, ![50], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S2000x128 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S128x128 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 2 → Memref sig .tc .vmem S2000x128 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev grid1 : Pipeline.Grid := ⟨1, ![50], ![false]⟩

def cc1_transform_0 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_1 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_2 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_3 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_4 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_5 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_6 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_7 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_8 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_9 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage1_0 : Fin 2 → Memref sig .tc .vmem S2000x128 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true]

abbrev stage1_1 : Fin 2 → Memref sig .tc .vmem S2000x128 .f32 := fun | 0 => Memref.whole cc1_stg1_0 | 1 => Memref.whole cc1_stg1_1 | ⟨_ + 2, h⟩ => absurd h (Nat.not_lt.2 (Nat.le_add_left _ _))
abbrev sem1_1 : Fin 2 → DmaSem sig := fun | 0 => cc1_sem1_0 | 1 => cc1_sem1_1 | ⟨_ + 2, h⟩ => absurd h (Nat.not_lt.2 (Nat.le_add_left _ _))
abbrev reads1_1 : Fin grid1.rank → Bool := ![true]

abbrev stage1_2 : Fin 1 → Memref sig .tc .vmem S1x128 .f32 := fun | 0 => Memref.whole cc1_stg2_0 | ⟨_ + 1, h⟩ => absurd h (Nat.not_lt.2 (Nat.le_add_left _ _))
abbrev sem1_2 : Fin 1 → DmaSem sig := fun | 0 => cc1_sem2_0 | ⟨_ + 1, h⟩ => absurd h (Nat.not_lt.2 (Nat.le_add_left _ _))
abbrev reads1_2 : Fin grid1.rank → Bool := ![false]

abbrev stage1_3 : Fin 1 → Memref sig .tc .vmem S128x512 .bf16 := fun | 0 => Memref.whole cc1_stg3_0 | ⟨_ + 1, h⟩ => absurd h (Nat.not_lt.2 (Nat.le_add_left _ _))
abbrev sem1_3 : Fin 1 → DmaSem sig := fun | 0 => cc1_sem3_0 | ⟨_ + 1, h⟩ => absurd h (Nat.not_lt.2 (Nat.le_add_left _ _))
abbrev reads1_3 : Fin grid1.rank → Bool := ![false]

abbrev stage1_4 : Fin 1 → Memref sig .tc .vmem S1x512 .f32 := fun | 0 => Memref.whole cc1_stg4_0 | ⟨_ + 1, h⟩ => absurd h (Nat.not_lt.2 (Nat.le_add_left _ _))
abbrev sem1_4 : Fin 1 → DmaSem sig := fun | 0 => cc1_sem4_0 | ⟨_ + 1, h⟩ => absurd h (Nat.not_lt.2 (Nat.le_add_left _ _))
abbrev reads1_4 : Fin grid1.rank → Bool := ![false]

abbrev stage1_5 : Fin 1 → Memref sig .tc .vmem S512x256 .bf16 := fun | 0 => Memref.whole cc1_stg5_0 | ⟨_ + 1, h⟩ => absurd h (Nat.not_lt.2 (Nat.le_add_left _ _))
abbrev sem1_5 : Fin 1 → DmaSem sig := fun | 0 => cc1_sem5_0 | ⟨_ + 1, h⟩ => absurd h (Nat.not_lt.2 (Nat.le_add_left _ _))
abbrev reads1_5 : Fin grid1.rank → Bool := ![false]

abbrev stage1_6 : Fin 1 → Memref sig .tc .vmem S1x256 .f32 := fun | 0 => Memref.whole cc1_stg6_0 | ⟨_ + 1, h⟩ => absurd h (Nat.not_lt.2 (Nat.le_add_left _ _))
abbrev sem1_6 : Fin 1 → DmaSem sig := fun | 0 => cc1_sem6_0 | ⟨_ + 1, h⟩ => absurd h (Nat.not_lt.2 (Nat.le_add_left _ _))
abbrev reads1_6 : Fin grid1.rank → Bool := ![false]

abbrev stage1_7 : Fin 1 → Memref sig .tc .vmem S256x1 .bf16 := fun | 0 => Memref.whole cc1_stg7_0 | ⟨_ + 1, h⟩ => absurd h (Nat.not_lt.2 (Nat.le_add_left _ _))
abbrev sem1_7 : Fin 1 → DmaSem sig := fun | 0 => cc1_sem7_0 | ⟨_ + 1, h⟩ => absurd h (Nat.not_lt.2 (Nat.le_add_left _ _))
abbrev reads1_7 : Fin grid1.rank → Bool := ![false]

abbrev stage1_8 : Fin 1 → Memref sig .tc .vmem S1x1 .f32 := fun | 0 => Memref.whole cc1_stg8_0 | ⟨_ + 1, h⟩ => absurd h (Nat.not_lt.2 (Nat.le_add_left _ _))
abbrev sem1_8 : Fin 1 → DmaSem sig := fun | 0 => cc1_sem8_0 | ⟨_ + 1, h⟩ => absurd h (Nat.not_lt.2 (Nat.le_add_left _ _))
abbrev reads1_8 : Fin grid1.rank → Bool := ![false]

abbrev stage1_9 : Fin 2 → Memref sig .tc .vmem S2000x1 .f32 := fun | 0 => Memref.whole cc1_stg9_0 | 1 => Memref.whole cc1_stg9_1 | ⟨_ + 2, h⟩ => absurd h (Nat.not_lt.2 (Nat.le_add_left _ _))
abbrev sem1_9 : Fin 2 → DmaSem sig := fun | 0 => cc1_sem9_0 | 1 => cc1_sem9_1 | ⟨_ + 2, h⟩ => absurd h (Nat.not_lt.2 (Nat.le_add_left _ _))
abbrev reads1_9 : Fin grid1.rank → Bool := ![true]

class Facts₀ : Prop where
  slices_S2x1600000_S1x1600000_0_0 : S2x1600000.Slices ![0, 0] S1x1600000
  shapeCasts_S1x1600000_S1600000 : S1x1600000.ShapeCasts S1600000
  concatenates_S1600000_S100000_S1700000_d0 : Shape.Concatenates [S1600000, S100000] S1700000 0
  slices_S2x1600000_S1x1600000_1_0 : S2x1600000.Slices ![1, 0] S1x1600000
  bcast_S_S1700000 : S_.BroadcastsInDim S1700000 (![] : Fin 0 → Fin S1700000.rank)
  bcast_S_S100000 : S_.BroadcastsInDim S100000 (![] : Fin 0 → Fin S100000.rank)
  bcast_S1700000_S1700000x1_0 : S1700000.BroadcastsInDim S1700000x1 (![0] : Fin 1 → Fin S1700000x1.rank)
  bitsLt_bf16_f32 : FTy.bits .bf16 < FTy.bits .f32
  inb_S2000x128_S2000x128_0_0 : ∀ a, (![0, 0] : Fin 2 → Nat) a + S2000x128.size a ≤ S2000x128.size a
  h_S2000x128 : 0 < S2000x128.numel
  inb_S128x128_S128x128_0_0 : ∀ a, (![0, 0] : Fin 2 → Nat) a + S128x128.size a ≤ S128x128.size a
  h_S128x128 : 0 < S128x128.numel
  shapeCasts_S128x128_S128x128 : S128x128.ShapeCasts S128x128
  bcast_S1700000x1_S1700000x128_0_1 : S1700000x1.BroadcastsInDim S1700000x128 (![0, 1] : Fin 2 → Fin S1700000x128.rank)
  bcast_S_S100000x128 : S_.BroadcastsInDim S100000x128 (![] : Fin 0 → Fin S100000x128.rank)
  shapeCasts_S128_S1x128 : S128.ShapeCasts S1x128
  shapeCasts_S512_S1x512 : S512.ShapeCasts S1x512
  shapeCasts_S256_S1x256 : S256.ShapeCasts S1x256
  shapeCasts_S1_S1x1 : S1.ShapeCasts S1x1
  shapeCasts_S2000x128_S2000x128 : S2000x128.ShapeCasts S2000x128
  inb_S1x128_S1x128_0_0 : ∀ a, (![0, 0] : Fin 2 → Nat) a + S1x128.size a ≤ S1x128.size a
  h_S1x128 : 0 < S1x128.numel
  shapeCasts_S1x128_S1x128 : S1x128.ShapeCasts S1x128
  broadcasts_S1x128_S2000x128 : S1x128.Broadcasts S2000x128
  inb_S128x512_S128x512_0_0 : ∀ a, (![0, 0] : Fin 2 → Nat) a + S128x512.size a ≤ S128x512.size a
  h_S128x512 : 0 < S128x512.numel
  shapeCasts_S128x512_S128x512 : S128x512.ShapeCasts S128x512
  inb_S1x512_S1x512_0_0 : ∀ a, (![0, 0] : Fin 2 → Nat) a + S1x512.size a ≤ S1x512.size a
  h_S1x512 : 0 < S1x512.numel
  shapeCasts_S1x512_S1x512 : S1x512.ShapeCasts S1x512
  broadcasts_S1x512_S2000x512 : S1x512.Broadcasts S2000x512
  inb_S512x256_S512x256_0_0 : ∀ a, (![0, 0] : Fin 2 → Nat) a + S512x256.size a ≤ S512x256.size a
  h_S512x256 : 0 < S512x256.numel
  shapeCasts_S512x256_S512x256 : S512x256.ShapeCasts S512x256
  inb_S1x256_S1x256_0_0 : ∀ a, (![0, 0] : Fin 2 → Nat) a + S1x256.size a ≤ S1x256.size a
  h_S1x256 : 0 < S1x256.numel
  shapeCasts_S1x256_S1x256 : S1x256.ShapeCasts S1x256
  broadcasts_S1x256_S2000x256 : S1x256.Broadcasts S2000x256
  inb_S256x1_S256x1_0_0 : ∀ a, (![0, 0] : Fin 2 → Nat) a + S256x1.size a ≤ S256x1.size a
  h_S256x1 : 0 < S256x1.numel
  shapeCasts_S256x1_S256x1 : S256x1.ShapeCasts S256x1
  inb_S1x1_S1x1_0_0 : ∀ a, (![0, 0] : Fin 2 → Nat) a + S1x1.size a ≤ S1x1.size a
  h_S1x1 : 0 < S1x1.numel
  shapeCasts_S1x1_S1x1 : S1x1.ShapeCasts S1x1
  broadcasts_S1x1_S2000x1 : S1x1.Broadcasts S2000x1
  inb_S2000x1_S2000x1_0_0 : ∀ a, (![0, 0] : Fin 2 → Nat) a + S2000x1.size a ≤ S2000x1.size a
  h_S2000x1 : 0 < S2000x1.numel
  scatter_S100000_S1700000x1_S1700000_n_0_0_1_wf : ScatterDims.WF S100000 S1700000x1 S1700000 [] [0] [0] 1
  gather_S100000_S1700000x1_S1700000_n_0_n_n_0_1_1_wf : GatherDims.WF S100000 S1700000x1 S1700000 [] [0] [] [0] [] 1 ![1]
  dot_S2000x128_S128x128_S2000x128_1_0_0_1_n_n_wf : DotDims.WF S2000x128 S128x128 S2000x128 [1] [0] [0] [1] [] []
  gather_S100000x128_S1700000x1_S1700000x128_1_0_n_n_0_1_1128_wf : GatherDims.WF S100000x128 S1700000x1 S1700000x128 [1] [0] [] [0] [] 1 ![1, 128]
  scatter_S100000x128_S1700000x1_S1700000x128_1_0_0_1_wf : ScatterDims.WF S100000x128 S1700000x1 S1700000x128 [1] [0] [0] 1
  dot_S2000x128_S128x512_S2000x512_1_0_0_1_n_n_wf : DotDims.WF S2000x128 S128x512 S2000x512 [1] [0] [0] [1] [] []
  dot_S2000x512_S512x256_S2000x256_1_0_0_1_n_n_wf : DotDims.WF S2000x512 S512x256 S2000x256 [1] [0] [0] [1] [] []
  dot_S2000x256_S256x1_S2000x1_1_0_0_1_n_n_wf : DotDims.WF S2000x256 S256x1 S2000x1 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S2000x128.size a ≤ S100000x128.size a
  hwx0_0 : ∀ i : grid0.Coords, EltTy.bits .f32 = 32 ∨ (Rect.block (s := S100000x128) S2000x128.size (cc0_transform_0 i) (hinb0_0 i)).WholeWords (EltTy.packing .f32)
  hstage0_1 : ∀ j, (stage0_1 j).IsWhole
  nbuf0_1 : grid0.bufCount reads0_1 true = 1
  hreads0_1 : ∀ i i' : grid0.Coords, (∀ a, reads0_1 a = true → i a = i' a) → cc0_transform_1 i = cc0_transform_1 i'
  hinb0_1 : ∀ (i : grid0.Coords) a, (cc0_transform_1 i a + 1) * S128x128.size a ≤ S128x128.size a
  hwx0_1 : ∀ i : grid0.Coords, EltTy.bits .bf16 = 32 ∨ (Rect.block (s := S128x128) S128x128.size (cc0_transform_1 i) (hinb0_1 i)).WholeWords (EltTy.packing .bf16)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S2000x128.size a ≤ S100000x128.size a
  hwx0_2 : ∀ i : grid0.Coords, EltTy.bits .f32 = 32 ∨ (Rect.block (s := S100000x128) S2000x128.size (cc0_transform_2 i) (hinb0_2 i)).WholeWords (EltTy.packing .f32)
  hrank1 : 0 < grid1.rank
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S2000x128.size a ≤ S100000x128.size a
  hwx1_0 : ∀ i : grid1.Coords, EltTy.bits .f32 = 32 ∨ (Rect.block (s := S100000x128) S2000x128.size (cc1_transform_0 i) (hinb1_0 i)).WholeWords (EltTy.packing .f32)
  hstage1_1 : ∀ j, (stage1_1 j).IsWhole
  nbuf1_1 : grid1.bufCount reads1_1 false = 2
  hreads1_1 : ∀ i i' : grid1.Coords, (∀ a, reads1_1 a = true → i a = i' a) → cc1_transform_1 i = cc1_transform_1 i'
  hinb1_1 : ∀ (i : grid1.Coords) a, (cc1_transform_1 i a + 1) * S2000x128.size a ≤ S100000x128.size a
  hwx1_1 : ∀ i : grid1.Coords, EltTy.bits .f32 = 32 ∨ (Rect.block (s := S100000x128) S2000x128.size (cc1_transform_1 i) (hinb1_1 i)).WholeWords (EltTy.packing .f32)
  hstage1_2 : ∀ j, (stage1_2 j).IsWhole
  nbuf1_2 : grid1.bufCount reads1_2 true = 1
  hreads1_2 : ∀ i i' : grid1.Coords, (∀ a, reads1_2 a = true → i a = i' a) → cc1_transform_2 i = cc1_transform_2 i'
  hinb1_2 : ∀ (i : grid1.Coords) a, (cc1_transform_2 i a + 1) * S1x128.size a ≤ S1x128.size a
  hwx1_2 : ∀ i : grid1.Coords, EltTy.bits .f32 = 32 ∨ (Rect.block (s := S1x128) S1x128.size (cc1_transform_2 i) (hinb1_2 i)).WholeWords (EltTy.packing .f32)
  hstage1_3 : ∀ j, (stage1_3 j).IsWhole
  nbuf1_3 : grid1.bufCount reads1_3 true = 1
  hreads1_3 : ∀ i i' : grid1.Coords, (∀ a, reads1_3 a = true → i a = i' a) → cc1_transform_3 i = cc1_transform_3 i'
  hinb1_3 : ∀ (i : grid1.Coords) a, (cc1_transform_3 i a + 1) * S128x512.size a ≤ S128x512.size a
  hwx1_3 : ∀ i : grid1.Coords, EltTy.bits .bf16 = 32 ∨ (Rect.block (s := S128x512) S128x512.size (cc1_transform_3 i) (hinb1_3 i)).WholeWords (EltTy.packing .bf16)
  hstage1_4 : ∀ j, (stage1_4 j).IsWhole
  nbuf1_4 : grid1.bufCount reads1_4 true = 1
  hreads1_4 : ∀ i i' : grid1.Coords, (∀ a, reads1_4 a = true → i a = i' a) → cc1_transform_4 i = cc1_transform_4 i'
  hinb1_4 : ∀ (i : grid1.Coords) a, (cc1_transform_4 i a + 1) * S1x512.size a ≤ S1x512.size a
  hwx1_4 : ∀ i : grid1.Coords, EltTy.bits .f32 = 32 ∨ (Rect.block (s := S1x512) S1x512.size (cc1_transform_4 i) (hinb1_4 i)).WholeWords (EltTy.packing .f32)
  hstage1_5 : ∀ j, (stage1_5 j).IsWhole
  nbuf1_5 : grid1.bufCount reads1_5 true = 1
  hreads1_5 : ∀ i i' : grid1.Coords, (∀ a, reads1_5 a = true → i a = i' a) → cc1_transform_5 i = cc1_transform_5 i'
  hinb1_5 : ∀ (i : grid1.Coords) a, (cc1_transform_5 i a + 1) * S512x256.size a ≤ S512x256.size a
  hwx1_5 : ∀ i : grid1.Coords, EltTy.bits .bf16 = 32 ∨ (Rect.block (s := S512x256) S512x256.size (cc1_transform_5 i) (hinb1_5 i)).WholeWords (EltTy.packing .bf16)
  hstage1_6 : ∀ j, (stage1_6 j).IsWhole
  nbuf1_6 : grid1.bufCount reads1_6 true = 1
  hreads1_6 : ∀ i i' : grid1.Coords, (∀ a, reads1_6 a = true → i a = i' a) → cc1_transform_6 i = cc1_transform_6 i'
  hinb1_6 : ∀ (i : grid1.Coords) a, (cc1_transform_6 i a + 1) * S1x256.size a ≤ S1x256.size a
  hwx1_6 : ∀ i : grid1.Coords, EltTy.bits .f32 = 32 ∨ (Rect.block (s := S1x256) S1x256.size (cc1_transform_6 i) (hinb1_6 i)).WholeWords (EltTy.packing .f32)
  hstage1_7 : ∀ j, (stage1_7 j).IsWhole
  nbuf1_7 : grid1.bufCount reads1_7 true = 1
  hreads1_7 : ∀ i i' : grid1.Coords, (∀ a, reads1_7 a = true → i a = i' a) → cc1_transform_7 i = cc1_transform_7 i'
  hinb1_7 : ∀ (i : grid1.Coords) a, (cc1_transform_7 i a + 1) * S256x1.size a ≤ S256x1.size a
  hwx1_7 : ∀ i : grid1.Coords, EltTy.bits .bf16 = 32 ∨ (Rect.block (s := S256x1) S256x1.size (cc1_transform_7 i) (hinb1_7 i)).WholeWords (EltTy.packing .bf16)
  hstage1_8 : ∀ j, (stage1_8 j).IsWhole
  nbuf1_8 : grid1.bufCount reads1_8 true = 1
  hreads1_8 : ∀ i i' : grid1.Coords, (∀ a, reads1_8 a = true → i a = i' a) → cc1_transform_8 i = cc1_transform_8 i'
  hinb1_8 : ∀ (i : grid1.Coords) a, (cc1_transform_8 i a + 1) * S1x1.size a ≤ S1x1.size a
  hwx1_8 : ∀ i : grid1.Coords, EltTy.bits .f32 = 32 ∨ (Rect.block (s := S1x1) S1x1.size (cc1_transform_8 i) (hinb1_8 i)).WholeWords (EltTy.packing .f32)
  hstage1_9 : ∀ j, (stage1_9 j).IsWhole
  nbuf1_9 : grid1.bufCount reads1_9 false = 2
  hreads1_9 : ∀ i i' : grid1.Coords, (∀ a, reads1_9 a = true → i a = i' a) → cc1_transform_9 i = cc1_transform_9 i'
  hinb1_9 : ∀ (i : grid1.Coords) a, (cc1_transform_9 i a + 1) * S2000x1.size a ≤ S100000x1.size a
  hwx1_9 : ∀ i : grid1.Coords, EltTy.bits .f32 = 32 ∨ (Rect.block (s := S100000x1) S2000x1.size (cc1_transform_9 i) (hinb1_9 i)).WholeWords (EltTy.packing .f32)

variable [Facts₀]

def scatter_S100000_S1700000x1_S1700000_n_0_0_1 : ScatterDims S100000 S1700000x1 S1700000 where
  updateWindowDims := []
  insertedWindowDims := [0]
  scatterDimsToOperandDims := [0]
  indexVectorDim := 1
  wf := scatter_S100000_S1700000x1_S1700000_n_0_0_1_wf
def gather_S100000_S1700000x1_S1700000_n_0_n_n_0_1_1 : GatherDims S100000 S1700000x1 S1700000 where
  offsetDims := []
  collapsedSliceDims := [0]
  operandBatchingDims := []
  startIndicesBatchingDims := []
  startIndexMap := [0]
  indexVectorDim := 1
  sliceSizes := ![1]
  wf := gather_S100000_S1700000x1_S1700000_n_0_n_n_0_1_1_wf
def dot_S2000x128_S128x128_S2000x128_1_0_0_1_n_n : DotDims S2000x128 S128x128 S2000x128 where
  lhsContracting := [1]
  rhsContracting := [0]
  lhsNonContracting := [0]
  rhsNonContracting := [1]
  lhsBatch := []
  rhsBatch := []
  wf := dot_S2000x128_S128x128_S2000x128_1_0_0_1_n_n_wf
def gather_S100000x128_S1700000x1_S1700000x128_1_0_n_n_0_1_1128 : GatherDims S100000x128 S1700000x1 S1700000x128 where
  offsetDims := [1]
  collapsedSliceDims := [0]
  operandBatchingDims := []
  startIndicesBatchingDims := []
  startIndexMap := [0]
  indexVectorDim := 1
  sliceSizes := ![1, 128]
  wf := gather_S100000x128_S1700000x1_S1700000x128_1_0_n_n_0_1_1128_wf
def scatter_S100000x128_S1700000x1_S1700000x128_1_0_0_1 : ScatterDims S100000x128 S1700000x1 S1700000x128 where
  updateWindowDims := [1]
  insertedWindowDims := [0]
  scatterDimsToOperandDims := [0]
  indexVectorDim := 1
  wf := scatter_S100000x128_S1700000x1_S1700000x128_1_0_0_1_wf
def dot_S2000x128_S128x512_S2000x512_1_0_0_1_n_n : DotDims S2000x128 S128x512 S2000x512 where
  lhsContracting := [1]
  rhsContracting := [0]
  lhsNonContracting := [0]
  rhsNonContracting := [1]
  lhsBatch := []
  rhsBatch := []
  wf := dot_S2000x128_S128x512_S2000x512_1_0_0_1_n_n_wf
def dot_S2000x512_S512x256_S2000x256_1_0_0_1_n_n : DotDims S2000x512 S512x256 S2000x256 where
  lhsContracting := [1]
  rhsContracting := [0]
  lhsNonContracting := [0]
  rhsNonContracting := [1]
  lhsBatch := []
  rhsBatch := []
  wf := dot_S2000x512_S512x256_S2000x256_1_0_0_1_n_n_wf
def dot_S2000x256_S256x1_S2000x1_1_0_0_1_n_n : DotDims S2000x256 S256x1 S2000x1 where
  lhsContracting := [1]
  rhsContracting := [0]
  lhsNonContracting := [0]
  rhsNonContracting := [1]
  lhsBatch := []
  rhsBatch := []
  wf := dot_S2000x256_S256x1_S2000x1_1_0_0_1_n_n_wf

abbrev win0_0 : Pipeline.Window sig grid0 :=
  Pipeline.Window.ofSpec (Memref.whole main_arg0) S2000x128.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v32) S128x128.size cc0_transform_1 reads0_1 false true 1 stage0_1 sem0_1
    hrank0 hreads0_1 hinb0_1 nbuf0_1 (Memref.isWhole_whole _) hwx0_1 hstage0_1

abbrev win0_2 : Pipeline.Window sig grid0 :=
  Pipeline.Window.ofSpec (Memref.whole main_v33) S2000x128.size cc0_transform_2 reads0_2 true false 2 stage0_2 sem0_2
    hrank0 hreads0_2 hinb0_2 nbuf0_2 (Memref.isWhole_whole _) hwx0_2 hstage0_2

abbrev win0 : Fin 3 → Pipeline.Window sig grid0 := fun | 0 => win0_0 | 1 => win0_1 | 2 => win0_2 | ⟨_ + 3, h⟩ => absurd h (Nat.not_lt.2 (Nat.le_add_left _ _))
abbrev spec0 : Fin 3 → Pipeline.WinSpec sig grid0.rank := fun w => (win0 w).toWinSpec

abbrev win1_0 : Pipeline.Window sig grid1 :=
  Pipeline.Window.ofSpec (Memref.whole main_v46) S2000x128.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_arg0) S2000x128.size cc1_transform_1 reads1_1 false false 2 stage1_1 sem1_1
    hrank1 hreads1_1 hinb1_1 nbuf1_1 (Memref.isWhole_whole _) hwx1_1 hstage1_1

abbrev win1_2 : Pipeline.Window sig grid1 :=
  Pipeline.Window.ofSpec (Memref.whole main_v47) S1x128.size cc1_transform_2 reads1_2 false true 1 stage1_2 sem1_2
    hrank1 hreads1_2 hinb1_2 nbuf1_2 (Memref.isWhole_whole _) hwx1_2 hstage1_2

abbrev win1_3 : Pipeline.Window sig grid1 :=
  Pipeline.Window.ofSpec (Memref.whole main_v51) S128x512.size cc1_transform_3 reads1_3 false true 1 stage1_3 sem1_3
    hrank1 hreads1_3 hinb1_3 nbuf1_3 (Memref.isWhole_whole _) hwx1_3 hstage1_3

abbrev win1_4 : Pipeline.Window sig grid1 :=
  Pipeline.Window.ofSpec (Memref.whole main_v48) S1x512.size cc1_transform_4 reads1_4 false true 1 stage1_4 sem1_4
    hrank1 hreads1_4 hinb1_4 nbuf1_4 (Memref.isWhole_whole _) hwx1_4 hstage1_4

abbrev win1_5 : Pipeline.Window sig grid1 :=
  Pipeline.Window.ofSpec (Memref.whole main_v52) S512x256.size cc1_transform_5 reads1_5 false true 1 stage1_5 sem1_5
    hrank1 hreads1_5 hinb1_5 nbuf1_5 (Memref.isWhole_whole _) hwx1_5 hstage1_5

abbrev win1_6 : Pipeline.Window sig grid1 :=
  Pipeline.Window.ofSpec (Memref.whole main_v49) S1x256.size cc1_transform_6 reads1_6 false true 1 stage1_6 sem1_6
    hrank1 hreads1_6 hinb1_6 nbuf1_6 (Memref.isWhole_whole _) hwx1_6 hstage1_6

abbrev win1_7 : Pipeline.Window sig grid1 :=
  Pipeline.Window.ofSpec (Memref.whole main_v53) S256x1.size cc1_transform_7 reads1_7 false true 1 stage1_7 sem1_7
    hrank1 hreads1_7 hinb1_7 nbuf1_7 (Memref.isWhole_whole _) hwx1_7 hstage1_7

abbrev win1_8 : Pipeline.Window sig grid1 :=
  Pipeline.Window.ofSpec (Memref.whole main_v50) S1x1.size cc1_transform_8 reads1_8 false true 1 stage1_8 sem1_8
    hrank1 hreads1_8 hinb1_8 nbuf1_8 (Memref.isWhole_whole _) hwx1_8 hstage1_8

abbrev win1_9 : Pipeline.Window sig grid1 :=
  Pipeline.Window.ofSpec (Memref.whole main_v54) S2000x1.size cc1_transform_9 reads1_9 true false 2 stage1_9 sem1_9
    hrank1 hreads1_9 hinb1_9 nbuf1_9 (Memref.isWhole_whole _) hwx1_9 hstage1_9

abbrev win1 : Fin 10 → Pipeline.Window sig grid1 := fun | 0 => win1_0 | 1 => win1_1 | 2 => win1_2 | 3 => win1_3 | 4 => win1_4 | 5 => win1_5 | 6 => win1_6 | 7 => win1_7 | 8 => win1_8 | 9 => win1_9 | ⟨_ + 10, h⟩ => absurd h (Nat.not_lt.2 (Nat.le_add_left _ _))
abbrev spec1 : Fin 10 → Pipeline.WinSpec sig grid1.rank := fun w => (win1 w).toWinSpec

class Facts : Prop extends Facts₀ where

variable [Facts]
-- ==== ReferenceIdeal.lean ====
abbrev S100000x128 : Shape := ⟨2, ![100000, 128]⟩
abbrev S2x1600000 : Shape := ⟨2, ![2, 1600000]⟩
abbrev S128x128 : Shape := ⟨2, ![128, 128]⟩
abbrev S128 : Shape := ⟨1, ![128]⟩
abbrev S128x512 : Shape := ⟨2, ![128, 512]⟩
abbrev S512 : Shape := ⟨1, ![512]⟩
abbrev S512x256 : Shape := ⟨2, ![512, 256]⟩
abbrev S256 : Shape := ⟨1, ![256]⟩
abbrev S256x1 : Shape := ⟨2, ![256, 1]⟩
abbrev S1 : Shape := ⟨1, ![1]⟩
abbrev S100000 : Shape := ⟨1, ![100000]⟩
abbrev S1x1600000 : Shape := ⟨2, ![1, 1600000]⟩
abbrev S1600000 : Shape := ⟨1, ![1600000]⟩
abbrev S1700000 : Shape := ⟨1, ![1700000]⟩
abbrev S_ : Shape := ⟨0, ![]⟩
abbrev S1700000x1 : Shape := ⟨2, ![1700000, 1]⟩
abbrev S1700000x128 : Shape := ⟨2, ![1700000, 128]⟩
abbrev S1x128 : Shape := ⟨2, ![1, 128]⟩
abbrev S100000x512 : Shape := ⟨2, ![100000, 512]⟩
abbrev S1x512 : Shape := ⟨2, ![1, 512]⟩
abbrev S100000x256 : Shape := ⟨2, ![100000, 256]⟩
abbrev S1x256 : Shape := ⟨2, ![1, 256]⟩
abbrev S100000x1 : Shape := ⟨2, ![100000, 1]⟩
abbrev S1x1 : Shape := ⟨2, ![1, 1]⟩

abbrev nBuf : Space → Nat
  | .hbm => 95
  | .vmem => 0
  | .smem => 0
  | _ => 0

abbrev bufTy : (tb : Table) → Fin (tcTables nBuf tb) → BufTy
  | .hbm, ⟨0, _⟩ => ⟨S100000x128, .f32⟩
  | .hbm, ⟨1, _⟩ => ⟨S2x1600000, .i32⟩
  | .hbm, ⟨2, _⟩ => ⟨S128x128, .f32⟩
  | .hbm, ⟨3, _⟩ => ⟨S128, .f32⟩
  | .hbm, ⟨4, _⟩ => ⟨S128x512, .f32⟩
  | .hbm, ⟨5, _⟩ => ⟨S512, .f32⟩
  | .hbm, ⟨6, _⟩ => ⟨S512x256, .f32⟩
  | .hbm, ⟨7, _⟩ => ⟨S256, .f32⟩
  | .hbm, ⟨8, _⟩ => ⟨S256x1, .f32⟩
  | .hbm, ⟨9, _⟩ => ⟨S1, .f32⟩
  | .hbm, ⟨10, _⟩ => ⟨S100000, .i32⟩
  | .hbm, ⟨11, _⟩ => ⟨S1x1600000, .i32⟩
  | .hbm, ⟨12, _⟩ => ⟨S1600000, .i32⟩
  | .hbm, ⟨13, _⟩ => ⟨S1700000, .i32⟩
  | .hbm, ⟨14, _⟩ => ⟨S1x1600000, .i32⟩
  | .hbm, ⟨15, _⟩ => ⟨S1600000, .i32⟩
  | .hbm, ⟨16, _⟩ => ⟨S1700000, .i32⟩
  | .hbm, ⟨17, _⟩ => ⟨S_, .f32⟩
  | .hbm, ⟨18, _⟩ => ⟨S1700000, .f32⟩
  | .hbm, ⟨19, _⟩ => ⟨S_, .f32⟩
  | .hbm, ⟨20, _⟩ => ⟨S100000, .f32⟩
  | .hbm, ⟨21, _⟩ => ⟨S1700000x1, .i32⟩
  | .hbm, ⟨22, _⟩ => ⟨S100000, .f32⟩
  | .hbm, ⟨23, _⟩ => ⟨S_, .f32⟩
  | .hbm, ⟨24, _⟩ => ⟨S100000, .f32⟩
  | .hbm, ⟨25, _⟩ => ⟨S100000, .i1⟩
  | .hbm, ⟨26, _⟩ => ⟨S_, .f32⟩
  | .hbm, ⟨27, _⟩ => ⟨S100000, .f32⟩
  | .hbm, ⟨28, _⟩ => ⟨S100000, .f32⟩
  | .hbm, ⟨29, _⟩ => ⟨S100000, .f32⟩
  | .hbm, ⟨30, _⟩ => ⟨S_, .f32⟩
  | .hbm, ⟨31, _⟩ => ⟨S_, .f32⟩
  | .hbm, ⟨32, _⟩ => ⟨S100000, .f32⟩
  | .hbm, ⟨33, _⟩ => ⟨S100000, .f32⟩
  | .hbm, ⟨34, _⟩ => ⟨S_, .i32⟩
  | .hbm, ⟨35, _⟩ => ⟨S1700000, .i32⟩
  | .hbm, ⟨36, _⟩ => ⟨S1700000, .i1⟩
  | .hbm, ⟨37, _⟩ => ⟨S_, .i32⟩
  | .hbm, ⟨38, _⟩ => ⟨S1700000, .i32⟩
  | .hbm, ⟨39, _⟩ => ⟨S1700000, .i32⟩
  | .hbm, ⟨40, _⟩ => ⟨S1700000, .i32⟩
  | .hbm, ⟨41, _⟩ => ⟨S1700000x1, .i32⟩
  | .hbm, ⟨42, _⟩ => ⟨S1700000, .f32⟩
  | .hbm, ⟨43, _⟩ => ⟨S_, .i32⟩
  | .hbm, ⟨44, _⟩ => ⟨S1700000, .i32⟩
  | .hbm, ⟨45, _⟩ => ⟨S1700000, .i1⟩
  | .hbm, ⟨46, _⟩ => ⟨S_, .i32⟩
  | .hbm, ⟨47, _⟩ => ⟨S1700000, .i32⟩
  | .hbm, ⟨48, _⟩ => ⟨S1700000, .i32⟩
  | .hbm, ⟨49, _⟩ => ⟨S1700000, .i32⟩
  | .hbm, ⟨50, _⟩ => ⟨S1700000x1, .i32⟩
  | .hbm, ⟨51, _⟩ => ⟨S1700000, .f32⟩
  | .hbm, ⟨52, _⟩ => ⟨S1700000, .f32⟩
  | .hbm, ⟨53, _⟩ => ⟨S100000x128, .f32⟩
  | .hbm, ⟨54, _⟩ => ⟨S_, .i32⟩
  | .hbm, ⟨55, _⟩ => ⟨S1700000, .i32⟩
  | .hbm, ⟨56, _⟩ => ⟨S1700000, .i1⟩
  | .hbm, ⟨57, _⟩ => ⟨S_, .i32⟩
  | .hbm, ⟨58, _⟩ => ⟨S1700000, .i32⟩
  | .hbm, ⟨59, _⟩ => ⟨S1700000, .i32⟩
  | .hbm, ⟨60, _⟩ => ⟨S1700000, .i32⟩
  | .hbm, ⟨61, _⟩ => ⟨S1700000x1, .i32⟩
  | .hbm, ⟨62, _⟩ => ⟨S1700000x128, .f32⟩
  | .hbm, ⟨63, _⟩ => ⟨S1700000x1, .f32⟩
  | .hbm, ⟨64, _⟩ => ⟨S1700000x128, .f32⟩
  | .hbm, ⟨65, _⟩ => ⟨S1700000x128, .f32⟩
  | .hbm, ⟨66, _⟩ => ⟨S_, .f32⟩
  | .hbm, ⟨67, _⟩ => ⟨S100000x128, .f32⟩
  | .hbm, ⟨68, _⟩ => ⟨S1700000x1, .i32⟩
  | .hbm, ⟨69, _⟩ => ⟨S100000x128, .f32⟩
  | .hbm, ⟨70, _⟩ => ⟨S1x128, .f32⟩
  | .hbm, ⟨71, _⟩ => ⟨S100000x128, .f32⟩
  | .hbm, ⟨72, _⟩ => ⟨S100000x128, .f32⟩
  | .hbm, ⟨73, _⟩ => ⟨S_, .f32⟩
  | .hbm, ⟨74, _⟩ => ⟨S100000x128, .f32⟩
  | .hbm, ⟨75, _⟩ => ⟨S100000x128, .f32⟩
  | .hbm, ⟨76, _⟩ => ⟨S100000x128, .f32⟩
  | .hbm, ⟨77, _⟩ => ⟨S100000x512, .f32⟩
  | .hbm, ⟨78, _⟩ => ⟨S1x512, .f32⟩
  | .hbm, ⟨79, _⟩ => ⟨S100000x512, .f32⟩
  | .hbm, ⟨80, _⟩ => ⟨S100000x512, .f32⟩
  | .hbm, ⟨81, _⟩ => ⟨S_, .f32⟩
  | .hbm, ⟨82, _⟩ => ⟨S100000x512, .f32⟩
  | .hbm, ⟨83, _⟩ => ⟨S100000x512, .f32⟩
  | .hbm, ⟨84, _⟩ => ⟨S100000x256, .f32⟩
  | .hbm, ⟨85, _⟩ => ⟨S1x256, .f32⟩
  | .hbm, ⟨86, _⟩ => ⟨S100000x256, .f32⟩
  | .hbm, ⟨87, _⟩ => ⟨S100000x256, .f32⟩
  | .hbm, ⟨88, _⟩ => ⟨S_, .f32⟩
  | .hbm, ⟨89, _⟩ => ⟨S100000x256, .f32⟩
  | .hbm, ⟨90, _⟩ => ⟨S100000x256, .f32⟩
  | .hbm, ⟨91, _⟩ => ⟨S100000x1, .f32⟩
  | .hbm, ⟨92, _⟩ => ⟨S1x1, .f32⟩
  | .hbm, ⟨93, _⟩ => ⟨S100000x1, .f32⟩
  | .hbm, ⟨94, _⟩ => ⟨S100000x1, .f32⟩
  | _, _ => ⟨S100000x128, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_v0 : Ref sig .tc := ⟨.hbm, 10, rfl⟩
abbrev main_v1 : Ref sig .tc := ⟨.hbm, 11, rfl⟩
abbrev main_v2 : Ref sig .tc := ⟨.hbm, 12, rfl⟩
abbrev main_v3 : Ref sig .tc := ⟨.hbm, 13, rfl⟩
abbrev main_v4 : Ref sig .tc := ⟨.hbm, 14, rfl⟩
abbrev main_v5 : Ref sig .tc := ⟨.hbm, 15, rfl⟩
abbrev main_v6 : Ref sig .tc := ⟨.hbm, 16, rfl⟩
abbrev main_cst : Ref sig .tc := ⟨.hbm, 17, rfl⟩
abbrev main_v7 : Ref sig .tc := ⟨.hbm, 18, rfl⟩
abbrev main_cst_0 : Ref sig .tc := ⟨.hbm, 19, rfl⟩
abbrev main_v8 : Ref sig .tc := ⟨.hbm, 20, rfl⟩
abbrev main_v9 : Ref sig .tc := ⟨.hbm, 21, rfl⟩
abbrev main_v10 : Ref sig .tc := ⟨.hbm, 22, rfl⟩
abbrev main_cst_1 : Ref sig .tc := ⟨.hbm, 23, rfl⟩
abbrev main_v11 : Ref sig .tc := ⟨.hbm, 24, rfl⟩
abbrev main_v12 : Ref sig .tc := ⟨.hbm, 25, rfl⟩
abbrev main_cst_2 : Ref sig .tc := ⟨.hbm, 26, rfl⟩
abbrev main_v13 : Ref sig .tc := ⟨.hbm, 27, rfl⟩
abbrev main_v14 : Ref sig .tc := ⟨.hbm, 28, rfl⟩
abbrev main_v15 : Ref sig .tc := ⟨.hbm, 29, rfl⟩
abbrev main_cst_3 : Ref sig .tc := ⟨.hbm, 30, rfl⟩
abbrev main_call0_v0 : Ref sig .tc := ⟨.hbm, 31, rfl⟩
abbrev main_call0_v1 : Ref sig .tc := ⟨.hbm, 32, rfl⟩
abbrev main_v16 : Ref sig .tc := ⟨.hbm, 33, rfl⟩
abbrev main_c : Ref sig .tc := ⟨.hbm, 34, rfl⟩
abbrev main_v17 : Ref sig .tc := ⟨.hbm, 35, rfl⟩
abbrev main_v18 : Ref sig .tc := ⟨.hbm, 36, rfl⟩
abbrev main_c_4 : Ref sig .tc := ⟨.hbm, 37, rfl⟩
abbrev main_v19 : Ref sig .tc := ⟨.hbm, 38, rfl⟩
abbrev main_v20 : Ref sig .tc := ⟨.hbm, 39, rfl⟩
abbrev main_v21 : Ref sig .tc := ⟨.hbm, 40, rfl⟩
abbrev main_v22 : Ref sig .tc := ⟨.hbm, 41, rfl⟩
abbrev main_v23 : Ref sig .tc := ⟨.hbm, 42, rfl⟩
abbrev main_c_5 : Ref sig .tc := ⟨.hbm, 43, rfl⟩
abbrev main_v24 : Ref sig .tc := ⟨.hbm, 44, rfl⟩
abbrev main_v25 : Ref sig .tc := ⟨.hbm, 45, rfl⟩
abbrev main_c_6 : Ref sig .tc := ⟨.hbm, 46, rfl⟩
abbrev main_v26 : Ref sig .tc := ⟨.hbm, 47, rfl⟩
abbrev main_v27 : Ref sig .tc := ⟨.hbm, 48, rfl⟩
abbrev main_v28 : Ref sig .tc := ⟨.hbm, 49, rfl⟩
abbrev main_v29 : Ref sig .tc := ⟨.hbm, 50, rfl⟩
abbrev main_v30 : Ref sig .tc := ⟨.hbm, 51, rfl⟩
abbrev main_v31 : Ref sig .tc := ⟨.hbm, 52, rfl⟩
abbrev main_v32 : Ref sig .tc := ⟨.hbm, 53, rfl⟩
abbrev main_c_7 : Ref sig .tc := ⟨.hbm, 54, rfl⟩
abbrev main_v33 : Ref sig .tc := ⟨.hbm, 55, rfl⟩
abbrev main_v34 : Ref sig .tc := ⟨.hbm, 56, rfl⟩
abbrev main_c_8 : Ref sig .tc := ⟨.hbm, 57, rfl⟩
abbrev main_v35 : Ref sig .tc := ⟨.hbm, 58, rfl⟩
abbrev main_v36 : Ref sig .tc := ⟨.hbm, 59, rfl⟩
abbrev main_v37 : Ref sig .tc := ⟨.hbm, 60, rfl⟩
abbrev main_v38 : Ref sig .tc := ⟨.hbm, 61, rfl⟩
abbrev main_v39 : Ref sig .tc := ⟨.hbm, 62, rfl⟩
abbrev main_v40 : Ref sig .tc := ⟨.hbm, 63, rfl⟩
abbrev main_v41 : Ref sig .tc := ⟨.hbm, 64, rfl⟩
abbrev main_v42 : Ref sig .tc := ⟨.hbm, 65, rfl⟩
abbrev main_cst_9 : Ref sig .tc := ⟨.hbm, 66, rfl⟩
abbrev main_v43 : Ref sig .tc := ⟨.hbm, 67, rfl⟩
abbrev main_v44 : Ref sig .tc := ⟨.hbm, 68, rfl⟩
abbrev main_v45 : Ref sig .tc := ⟨.hbm, 69, rfl⟩
abbrev main_v46 : Ref sig .tc := ⟨.hbm, 70, rfl⟩
abbrev main_v47 : Ref sig .tc := ⟨.hbm, 71, rfl⟩
abbrev main_v48 : Ref sig .tc := ⟨.hbm, 72, rfl⟩
abbrev main_call1_cst : Ref sig .tc := ⟨.hbm, 73, rfl⟩
abbrev main_call1_v0 : Ref sig .tc := ⟨.hbm, 74, rfl⟩
abbrev main_v49 : Ref sig .tc := ⟨.hbm, 75, rfl⟩
abbrev main_v50 : Ref sig .tc := ⟨.hbm, 76, rfl⟩
abbrev main_v51 : Ref sig .tc := ⟨.hbm, 77, rfl⟩
abbrev main_v52 : Ref sig .tc := ⟨.hbm, 78, rfl⟩
abbrev main_v53 : Ref sig .tc := ⟨.hbm, 79, rfl⟩
abbrev main_v54 : Ref sig .tc := ⟨.hbm, 80, rfl⟩
abbrev main_call2_cst : Ref sig .tc := ⟨.hbm, 81, rfl⟩
abbrev main_call2_v0 : Ref sig .tc := ⟨.hbm, 82, rfl⟩
abbrev main_v55 : Ref sig .tc := ⟨.hbm, 83, rfl⟩
abbrev main_v56 : Ref sig .tc := ⟨.hbm, 84, rfl⟩
abbrev main_v57 : Ref sig .tc := ⟨.hbm, 85, rfl⟩
abbrev main_v58 : Ref sig .tc := ⟨.hbm, 86, rfl⟩
abbrev main_v59 : Ref sig .tc := ⟨.hbm, 87, rfl⟩
abbrev main_call3_cst : Ref sig .tc := ⟨.hbm, 88, rfl⟩
abbrev main_call3_v0 : Ref sig .tc := ⟨.hbm, 89, rfl⟩
abbrev main_v60 : Ref sig .tc := ⟨.hbm, 90, rfl⟩
abbrev main_v61 : Ref sig .tc := ⟨.hbm, 91, rfl⟩
abbrev main_v62 : Ref sig .tc := ⟨.hbm, 92, rfl⟩
abbrev main_v63 : Ref sig .tc := ⟨.hbm, 93, rfl⟩
abbrev main_v64 : Ref sig .tc := ⟨.hbm, 94, rfl⟩

abbrev nD : Nat := 1
abbrev τ : Topo := Topo.v7x

variable {F : FTy → Type} [FloatOps F]

class Facts₀ : Prop where
  slices_S2x1600000_S1x1600000_0_0 : S2x1600000.Slices ![0, 0] S1x1600000
  shapeCasts_S1x1600000_S1600000 : S1x1600000.ShapeCasts S1600000
  concatenates_S1600000_S100000_S1700000_d0 : Shape.Concatenates [S1600000, S100000] S1700000 0
  slices_S2x1600000_S1x1600000_1_0 : S2x1600000.Slices ![1, 0] S1x1600000
  bcast_S_S1700000 : S_.BroadcastsInDim S1700000 (![] : Fin 0 → Fin S1700000.rank)
  bcast_S_S100000 : S_.BroadcastsInDim S100000 (![] : Fin 0 → Fin S100000.rank)
  bcast_S1700000_S1700000x1_0 : S1700000.BroadcastsInDim S1700000x1 (![0] : Fin 1 → Fin S1700000x1.rank)
  bcast_S1700000x1_S1700000x128_0_1 : S1700000x1.BroadcastsInDim S1700000x128 (![0, 1] : Fin 2 → Fin S1700000x128.rank)
  bcast_S_S100000x128 : S_.BroadcastsInDim S100000x128 (![] : Fin 0 → Fin S100000x128.rank)
  bcast_S128_S1x128_1 : S128.BroadcastsInDim S1x128 (![1] : Fin 1 → Fin S1x128.rank)
  bcast_S1x128_S100000x128_0_1 : S1x128.BroadcastsInDim S100000x128 (![0, 1] : Fin 2 → Fin S100000x128.rank)
  bcast_S512_S1x512_1 : S512.BroadcastsInDim S1x512 (![1] : Fin 1 → Fin S1x512.rank)
  bcast_S1x512_S100000x512_0_1 : S1x512.BroadcastsInDim S100000x512 (![0, 1] : Fin 2 → Fin S100000x512.rank)
  bcast_S_S100000x512 : S_.BroadcastsInDim S100000x512 (![] : Fin 0 → Fin S100000x512.rank)
  bcast_S256_S1x256_1 : S256.BroadcastsInDim S1x256 (![1] : Fin 1 → Fin S1x256.rank)
  bcast_S1x256_S100000x256_0_1 : S1x256.BroadcastsInDim S100000x256 (![0, 1] : Fin 2 → Fin S100000x256.rank)
  bcast_S_S100000x256 : S_.BroadcastsInDim S100000x256 (![] : Fin 0 → Fin S100000x256.rank)
  bcast_S1_S1x1_1 : S1.BroadcastsInDim S1x1 (![1] : Fin 1 → Fin S1x1.rank)
  bcast_S1x1_S100000x1_0_1 : S1x1.BroadcastsInDim S100000x1 (![0, 1] : Fin 2 → Fin S100000x1.rank)
  scatter_S100000_S1700000x1_S1700000_n_0_0_1_wf : ScatterDims.WF S100000 S1700000x1 S1700000 [] [0] [0] 1
  gather_S100000_S1700000x1_S1700000_n_0_n_n_0_1_1_wf : GatherDims.WF S100000 S1700000x1 S1700000 [] [0] [] [0] [] 1 ![1]
  dot_S100000x128_S128x128_S100000x128_1_0_0_1_n_n_wf : DotDims.WF S100000x128 S128x128 S100000x128 [1] [0] [0] [1] [] []
  gather_S100000x128_S1700000x1_S1700000x128_1_0_n_n_0_1_1128_wf : GatherDims.WF S100000x128 S1700000x1 S1700000x128 [1] [0] [] [0] [] 1 ![1, 128]
  scatter_S100000x128_S1700000x1_S1700000x128_1_0_0_1_wf : ScatterDims.WF S100000x128 S1700000x1 S1700000x128 [1] [0] [0] 1
  dot_S100000x128_S128x512_S100000x512_1_0_0_1_n_n_wf : DotDims.WF S100000x128 S128x512 S100000x512 [1] [0] [0] [1] [] []
  dot_S100000x512_S512x256_S100000x256_1_0_0_1_n_n_wf : DotDims.WF S100000x512 S512x256 S100000x256 [1] [0] [0] [1] [] []
  dot_S100000x256_S256x1_S100000x1_1_0_0_1_n_n_wf : DotDims.WF S100000x256 S256x1 S100000x1 [1] [0] [0] [1] [] []

variable [Facts₀]

def scatter_S100000_S1700000x1_S1700000_n_0_0_1 : ScatterDims S100000 S1700000x1 S1700000 where
  updateWindowDims := []
  insertedWindowDims := [0]
  scatterDimsToOperandDims := [0]
  indexVectorDim := 1
  wf := scatter_S100000_S1700000x1_S1700000_n_0_0_1_wf
def gather_S100000_S1700000x1_S1700000_n_0_n_n_0_1_1 : GatherDims S100000 S1700000x1 S1700000 where
  offsetDims := []
  collapsedSliceDims := [0]
  operandBatchingDims := []
  startIndicesBatchingDims := []
  startIndexMap := [0]
  indexVectorDim := 1
  sliceSizes := ![1]
  wf := gather_S100000_S1700000x1_S1700000_n_0_n_n_0_1_1_wf
def dot_S100000x128_S128x128_S100000x128_1_0_0_1_n_n : DotDims S100000x128 S128x128 S100000x128 where
  lhsContracting := [1]
  rhsContracting := [0]
  lhsNonContracting := [0]
  rhsNonContracting := [1]
  lhsBatch := []
  rhsBatch := []
  wf := dot_S100000x128_S128x128_S100000x128_1_0_0_1_n_n_wf
def gather_S100000x128_S1700000x1_S1700000x128_1_0_n_n_0_1_1128 : GatherDims S100000x128 S1700000x1 S1700000x128 where
  offsetDims := [1]
  collapsedSliceDims := [0]
  operandBatchingDims := []
  startIndicesBatchingDims := []
  startIndexMap := [0]
  indexVectorDim := 1
  sliceSizes := ![1, 128]
  wf := gather_S100000x128_S1700000x1_S1700000x128_1_0_n_n_0_1_1128_wf
def scatter_S100000x128_S1700000x1_S1700000x128_1_0_0_1 : ScatterDims S100000x128 S1700000x1 S1700000x128 where
  updateWindowDims := [1]
  insertedWindowDims := [0]
  scatterDimsToOperandDims := [0]
  indexVectorDim := 1
  wf := scatter_S100000x128_S1700000x1_S1700000x128_1_0_0_1_wf
def dot_S100000x128_S128x512_S100000x512_1_0_0_1_n_n : DotDims S100000x128 S128x512 S100000x512 where
  lhsContracting := [1]
  rhsContracting := [0]
  lhsNonContracting := [0]
  rhsNonContracting := [1]
  lhsBatch := []
  rhsBatch := []
  wf := dot_S100000x128_S128x512_S100000x512_1_0_0_1_n_n_wf
def dot_S100000x512_S512x256_S100000x256_1_0_0_1_n_n : DotDims S100000x512 S512x256 S100000x256 where
  lhsContracting := [1]
  rhsContracting := [0]
  lhsNonContracting := [0]
  rhsNonContracting := [1]
  lhsBatch := []
  rhsBatch := []
  wf := dot_S100000x512_S512x256_S100000x256_1_0_0_1_n_n_wf
def dot_S100000x256_S256x1_S100000x1_1_0_0_1_n_n : DotDims S100000x256 S256x1 S100000x1 where
  lhsContracting := [1]
  rhsContracting := [0]
  lhsNonContracting := [0]
  rhsNonContracting := [1]
  lhsBatch := []
  rhsBatch := []
  wf := dot_S100000x256_S256x1_S100000x1_1_0_0_1_n_n_wf

class Facts : Prop extends Facts₀ where

variable [Facts]
-- ==== Proof.Spec.lean ====
/-
  The network as one function of its argument arrays.

  A graph convolution followed by three dense layers and a read-out, over `N = 100000` nodes with `128` features
  and `E = 1600000` directed edges:

    · every node gets a self loop, so there are `E + N` edges, with sources `endpoints0` and targets `endpoints1`;
    · `degree v` counts the edges into `v`, `invSqrtDegree v = degree v ^ (-1/2)` where the degree is positive and `0`
      elsewhere, and edge `e` carries the weight `invSqrtDegree (src e) · invSqrtDegree (dst e)` (`edgeNorm`);
    · `linear x W = x · W`; `aggregate` sums, into each target node, the source node's row of that product times the
      edge's weight;
    · `hidden0 = max (aggregate + bias, 0) + x`, then `hidden1`, `hidden2` are `max (a · W + b, 0)` and `readout` is
      `a · W + b`.

  Index vectors may hold any 32-bit integers: a negative one is first raised by `N` (`wrapIdx`), and what a gather or a
  scatter does with an index still out of range is whatever the host operations say — these definitions only name
  the operations, they never open them.
-/
import proofs.«180418_j66314295050521_1_alg».proof.ReferenceIdeal
import proofs.«180418_j66314295050521_1_alg».proof.Proof.Gen.ReferenceIdeal

noncomputable section

namespace Cert.Spec

open Idealize.ShloMosaic Cert.ReferenceIdeal Cert.ReferenceIdeal.Gen

variable {F : FTy → Type} [FloatOps F]

/-- Row `k` of the edge list, followed by the self loops `0, 1, …, N - 1`: row 0 holds the sources. -/
def endpoints0 (ei : (⟨S2x1600000, .i32⟩ : BufTy).Contents (Elt F)) : (⟨S1700000, .i32⟩ : BufTy).Contents (Elt F) :=
  concatenate S1700000 0 [⟨S1600000, (shapeCast _ (extractStridedSlice S1x1600000 ![0, 0] ei slices_S2x1600000_S1x1600000_0_0) shapeCasts_S1x1600000_S1600000)⟩, ⟨S100000, (iotaInDim S100000 32 0)⟩] concatenates_S1600000_S100000_S1700000_d0

/-- Row 1 holds the targets. -/
def endpoints1 (ei : (⟨S2x1600000, .i32⟩ : BufTy).Contents (Elt F)) : (⟨S1700000, .i32⟩ : BufTy).Contents (Elt F) :=
  concatenate S1700000 0 [⟨S1600000, (shapeCast _ (extractStridedSlice S1x1600000 ![1, 0] ei slices_S2x1600000_S1x1600000_1_0) shapeCasts_S1x1600000_S1600000)⟩, ⟨S100000, (iotaInDim S100000 32 0)⟩] concatenates_S1600000_S100000_S1700000_d0

/-- A node index made a gather's start index: a negative index counts from the end. -/
def wrapIdx (v : (⟨S1700000, .i32⟩ : BufTy).Contents (Elt F)) : (⟨S1700000x1, .i32⟩ : BufTy).Contents (Elt F) :=
  broadcastInDim S1700000x1 ![0] bcast_S1700000_S1700000x1_0 (select (cmpi .slt v (broadcastInDim S1700000 ![] bcast_S_S1700000 (constantI S_ 32 0#32))) (addi v (broadcastInDim S1700000 ![] bcast_S_S1700000 (constantI S_ 32 100000#32))) v)

/-- The number of edges into each node: ones summed into the target's slot. -/
def degree (ei : (⟨S2x1600000, .i32⟩ : BufTy).Contents (Elt F)) : (⟨S100000, .f32⟩ : BufTy).Contents (Elt F) :=
  Host.scatterAdd scatter_S100000_S1700000x1_S1700000_n_0_0_1 (broadcastInDim S100000 ![] bcast_S_S100000 (constant S_ .f32 0x00000000#32)) (broadcastInDim S1700000x1 ![0] bcast_S1700000_S1700000x1_0 (endpoints1 ei)) (broadcastInDim S1700000 ![] bcast_S_S1700000 (constant S_ .f32 0x3F800000#32))

/-- `degree ^ (-1/2)` where the degree is positive (the degree first raised to at least the small constant), else `0`. -/
def invSqrtDegree (ei : (⟨S2x1600000, .i32⟩ : BufTy).Contents (Elt F)) : (⟨S100000, .f32⟩ : BufTy).Contents (Elt F) :=
  select (cmpf (F := F) .ogt (degree ei) (broadcastInDim S100000 ![] bcast_S_S100000 (constant S_ .f32 0x00000000#32))) (Host.rsqrt (maximumf (degree ei) (broadcastInDim S100000 ![] bcast_S_S100000 (constant S_ .f32 0x2B8CBCCC#32)))) (broadcastInDim S100000 ![] bcast_S_S100000 (id (constant S_ .f32 0x00000000#32)))

/-- The symmetric normalisation of an edge: the factor of its source times the factor of its target. -/
def edgeNorm (ei : (⟨S2x1600000, .i32⟩ : BufTy).Contents (Elt F)) : (⟨S1700000, .f32⟩ : BufTy).Contents (Elt F) :=
  mulf (Host.gather gather_S100000_S1700000x1_S1700000_n_0_n_n_0_1_1 (invSqrtDegree ei) (wrapIdx (endpoints0 ei))) (Host.gather gather_S100000_S1700000x1_S1700000_n_0_n_n_0_1_1 (invSqrtDegree ei) (wrapIdx (endpoints1 ei)))

/-- The node features through the convolution's weight matrix. -/
def linear (x : (⟨S100000x128, .f32⟩ : BufTy).Contents (Elt F)) (w : (⟨S128x128, .f32⟩ : BufTy).Contents (Elt F)) : (⟨S100000x128, .f32⟩ : BufTy).Contents (Elt F) :=
  Host.dotGeneral dot_S100000x128_S128x128_S100000x128_1_0_0_1_n_n none x w

/-- Message passing: each edge's message is its source's row of `h` times the edge's weight, summed into its target. -/
def aggregate (ei : (⟨S2x1600000, .i32⟩ : BufTy).Contents (Elt F)) (h : (⟨S100000x128, .f32⟩ : BufTy).Contents (Elt F)) : (⟨S100000x128, .f32⟩ : BufTy).Contents (Elt F) :=
  Host.scatterAdd scatter_S100000x128_S1700000x1_S1700000x128_1_0_0_1 (broadcastInDim S100000x128 ![] bcast_S_S100000x128 (constant S_ .f32 0x00000000#32)) (broadcastInDim S1700000x1 ![0] bcast_S1700000_S1700000x1_0 (endpoints1 ei)) (mulf (Host.gather gather_S100000x128_S1700000x1_S1700000x128_1_0_n_n_0_1_1128 h (wrapIdx (endpoints0 ei))) (broadcastInDim S1700000x128 ![0, 1] bcast_S1700000x1_S1700000x128_0_1 (broadcastInDim S1700000x1 ![0] bcast_S1700000_S1700000x1_0 (edgeNorm ei))))

/-- The convolution's bias and rectifier, then the residual connection. -/
def hidden0 (conv x : (⟨S100000x128, .f32⟩ : BufTy).Contents (Elt F)) (bg : (⟨S128, .f32⟩ : BufTy).Contents (Elt F)) : (⟨S100000x128, .f32⟩ : BufTy).Contents (Elt F) :=
  addf (maximumf (addf conv (broadcastInDim S100000x128 ![0, 1] bcast_S1x128_S100000x128_0_1 (broadcastInDim S1x128 ![1] bcast_S128_S1x128_1 bg))) (broadcastInDim S100000x128 ![] bcast_S_S100000x128 (constant S_ .f32 0x00000000#32))) x

/-- First dense layer: `max (a · W1 + b1, 0)`. -/
def hidden1 (a : (⟨S100000x128, .f32⟩ : BufTy).Contents (Elt F)) (w : (⟨S128x512, .f32⟩ : BufTy).Contents (Elt F)) (b : (⟨S512, .f32⟩ : BufTy).Contents (Elt F)) : (⟨S100000x512, .f32⟩ : BufTy).Contents (Elt F) :=
  maximumf (addf (Host.dotGeneral dot_S100000x128_S128x512_S100000x512_1_0_0_1_n_n none a w) (broadcastInDim S100000x512 ![0, 1] bcast_S1x512_S100000x512_0_1 (broadcastInDim S1x512 ![1] bcast_S512_S1x512_1 b))) (broadcastInDim S100000x512 ![] bcast_S_S100000x512 (constant S_ .f32 0x00000000#32))

/-- Second dense layer: `max (a · W2 + b2, 0)`. -/
def hidden2 (a : (⟨S100000x512, .f32⟩ : BufTy).Contents (Elt F)) (w : (⟨S512x256, .f32⟩ : BufTy).Contents (Elt F)) (b : (⟨S256, .f32⟩ : BufTy).Contents (Elt F)) : (⟨S100000x256, .f32⟩ : BufTy).Contents (Elt F) :=
  maximumf (addf (Host.dotGeneral dot_S100000x512_S512x256_S100000x256_1_0_0_1_n_n none a w) (broadcastInDim S100000x256 ![0, 1] bcast_S1x256_S100000x256_0_1 (broadcastInDim S1x256 ![1] bcast_S256_S1x256_1 b))) (broadcastInDim S100000x256 ![] bcast_S_S100000x256 (constant S_ .f32 0x00000000#32))

/-- The read-out: `a · W3 + b3`, one number per node. -/
def readout (a : (⟨S100000x256, .f32⟩ : BufTy).Contents (Elt F)) (w : (⟨S256x1, .f32⟩ : BufTy).Contents (Elt F)) (b : (⟨S1, .f32⟩ : BufTy).Contents (Elt F)) : (⟨S100000x1, .f32⟩ : BufTy).Contents (Elt F) :=
  addf (Host.dotGeneral dot_S100000x256_S256x1_S100000x1_1_0_0_1_n_n none a w) (broadcastInDim S100000x1 ![0, 1] bcast_S1x1_S100000x1_0_1 (broadcastInDim S1x1 ![1] bcast_S1_S1x1_1 b))

/-- Everything after the aggregation: a function of the aggregated features, the node features and the weights. -/
def mlp (conv x : (⟨S100000x128, .f32⟩ : BufTy).Contents (Elt F)) (bg : (⟨S128, .f32⟩ : BufTy).Contents (Elt F))
    (w1 : (⟨S128x512, .f32⟩ : BufTy).Contents (Elt F)) (b1 : (⟨S512, .f32⟩ : BufTy).Contents (Elt F))
    (w2 : (⟨S512x256, .f32⟩ : BufTy).Contents (Elt F)) (b2 : (⟨S256, .f32⟩ : BufTy).Contents (Elt F))
    (w3 : (⟨S256x1, .f32⟩ : BufTy).Contents (Elt F)) (b3 : (⟨S1, .f32⟩ : BufTy).Contents (Elt F)) : (⟨S100000x1, .f32⟩ : BufTy).Contents (Elt F) :=
  readout (hidden2 (hidden1 (hidden0 conv x bg) w1 b1) w2 b2) w3 b3

/-- The whole network. -/
def network (x : (⟨S100000x128, .f32⟩ : BufTy).Contents (Elt F)) (ei : (⟨S2x1600000, .i32⟩ : BufTy).Contents (Elt F))
    (wg : (⟨S128x128, .f32⟩ : BufTy).Contents (Elt F)) (bg : (⟨S128, .f32⟩ : BufTy).Contents (Elt F))
    (w1 : (⟨S128x512, .f32⟩ : BufTy).Contents (Elt F)) (b1 : (⟨S512, .f32⟩ : BufTy).Contents (Elt F))
    (w2 : (⟨S512x256, .f32⟩ : BufTy).Contents (Elt F)) (b2 : (⟨S256, .f32⟩ : BufTy).Contents (Elt F))
    (w3 : (⟨S256x1, .f32⟩ : BufTy).Contents (Elt F)) (b3 : (⟨S1, .f32⟩ : BufTy).Contents (Elt F)) : (⟨S100000x1, .f32⟩ : BufTy).Contents (Elt F) :=
  mlp (aggregate ei (linear x wg)) x bg w1 b1 w2 b2 w3 b3

end Cert.Spec

end
-- ==== Proof.RefSpec.lean ====
/-
  The plain program's result is the network of `Spec`: the composed term its run ends with is, read from the outside
  in, the read-out of the two dense layers of the residual of the aggregated linear features — the same operations in
  the same order, so the two terms are one.
-/
import proofs.«180418_j66314295050521_1_alg».proof.Proof.RefRun
import proofs.«180418_j66314295050521_1_alg».proof.Proof.Spec

noncomputable section

namespace Cert.Spec

open Idealize.ShloMosaic Idealize.SL.Sem Cert.ReferenceIdeal Cert.ReferenceIdeal.Gen

variable {F : FTy → Type} [FloatOps F]

set_option maxRecDepth 8192 in
/-- The reference's composed result term is `network` of its ten argument arrays. -/
theorem res_eq (m : (ℓ : Loc nD τ sig) → Buf (Elt F) ℓ) (c : Dev nD) :
    Cert.ReferenceIdeal.ValueP.res_main_v64 m c
      = network (m ((c.tc : Thread nD τ).loc main_arg0)) (m ((c.tc : Thread nD τ).loc main_arg1))
          (m ((c.tc : Thread nD τ).loc main_arg2)) (m ((c.tc : Thread nD τ).loc main_arg3))
          (m ((c.tc : Thread nD τ).loc main_arg4)) (m ((c.tc : Thread nD τ).loc main_arg5))
          (m ((c.tc : Thread nD τ).loc main_arg6)) (m ((c.tc : Thread nD τ).loc main_arg7))
          (m ((c.tc : Thread nD τ).loc main_arg8)) (m ((c.tc : Thread nD τ).loc main_arg9)) := by
  unfold Cert.ReferenceIdeal.ValueP.res_main_v64 network mlp readout hidden2 hidden1 hidden0 aggregate linear edgeNorm
    invSqrtDegree degree wrapIdx endpoints0 endpoints1
  rfl

end Cert.Spec

end
-- ==== Proof.LibAffineRows.lean ====
/-
  A dense layer read row by row, at the ideal values.

  A kernel that tiles the rows of a matrix `X` computes, on each tile `xb`, the product `xb · w` by a matrix unit
  (operands narrowed to bf16, accumulated into zeros) and adds a bias row kept as a `[1, M]` block; the plain program
  computes `X · w` by one `dot_general` and adds the bias vector `[M]` broadcast over the rows. Over the extended reals
  narrowing is the identity and both products are the textbook sum over the contracted index, so row `r` of the tile's
  result is row `n r` of the whole result as soon as row `r` of the tile is row `n r` of `X`
  (`affine_rows`), and the same after a `tanh` (`tanh_affine_rows`). Nothing here depends on the sizes.
-/
import Idealize.ShloMosaic.Lib.ValueIdx
import Idealize.ShloMosaic.Lib.ValueLayout
import Idealize.ShloMosaic.Lib.Pipeline.Value
import Idealize.ShloMosaic.PureOps.Ideal.Laws

noncomputable section

namespace Cert.Lib

open Idealize.ShloMosaic Idealize.ShloMosaic.ValueIdx

/-- The dimension numbers `d` describe the plain product of an `[R, K]` by a `[K, M]` matrix: one contracted index of
    extent `K`, which is the left operand's column and the right operand's row; the result's row is the left operand's
    row and its column the right operand's column. -/
structure PlainDot {R K M : ℕ} (d : DotDims ⟨2, ![R, K]⟩ ⟨2, ![K, M]⟩ ⟨2, ![R, M]⟩) : Prop where
  rank : d.contr.rank = 1
  size : d.contr.size ⟨0, by omega⟩ = K
  l0 : ∀ (i : (⟨2, ![R, M]⟩ : Shape).Idx) (q : d.contr.Idx), (d.lhsIdx i q 0).val = (i 0).val
  l1 : ∀ (i : (⟨2, ![R, M]⟩ : Shape).Idx) (q : d.contr.Idx), (d.lhsIdx i q 1).val = (q ⟨0, by omega⟩).val
  r0 : ∀ (i : (⟨2, ![R, M]⟩ : Shape).Idx) (q : d.contr.Idx), (d.rhsIdx i q 0).val = (q ⟨0, by omega⟩).val
  r1 : ∀ (i : (⟨2, ![R, M]⟩ : Shape).Idx) (q : d.contr.Idx), (d.rhsIdx i q 1).val = (i 1).val

variable {R K M : ℕ}

/-- The sum over the record's contraction index is the sum over `k < K` of `x (r, k) · w (k, c)`. -/
theorem PlainDot.sum_eq {d : DotDims ⟨2, ![R, K]⟩ ⟨2, ![K, M]⟩ ⟨2, ![R, M]⟩} (h : PlainDot d)
    (x : (⟨2, ![R, K]⟩ : Shape).Idx → EReal) (w : (⟨2, ![K, M]⟩ : Shape).Idx → EReal) (r : Fin R) (c : Fin M) :
    ∑ k : d.contr.Idx, x (d.lhsIdx (ix2 r c) k) * w (d.rhsIdx (ix2 r c) k) = ∑ k : Fin K, x (ix2 r k) * w (ix2 k c) := by
  rw [← Equiv.sum_comp (contrEquiv1 d K h.rank h.size).symm]
  refine Finset.sum_congr rfl fun k _ => ?_
  have hk := contrEquiv1_symm_val d K h.rank h.size k
  have el : d.lhsIdx (ix2 r c) ((contrEquiv1 d K h.rank h.size).symm k) = ix2 r k := funext fun a => Fin.ext (by
    match a with
    | ⟨0, _⟩ => exact h.l0 _ _
    | ⟨1, _⟩ => exact (h.l1 _ _).trans hk)
  have er : d.rhsIdx (ix2 r c) ((contrEquiv1 d K h.rank h.size).symm k) = ix2 k c := funext fun a => Fin.ext (by
    match a with
    | ⟨0, _⟩ => exact (h.r0 _ _).trans hk
    | ⟨1, _⟩ => exact h.r1 _ _)
  rw [el, er]

/-- A matrix unit's product of two narrowed operands into zeros, at `(r, c)`: the textbook sum. -/
theorem matmul_zero_apply {d : DotDims ⟨2, ![R, K]⟩ ⟨2, ![K, M]⟩ ⟨2, ![R, M]⟩} (h : PlainDot d)
    (x : FVec Ideal ⟨2, ![R, K]⟩ .f32) (w : FVec Ideal ⟨2, ![K, M]⟩ .f32) (ht : FTy.bits .bf16 < FTy.bits .f32)
    (r : Fin R) (c : Fin M) :
    matmul d none (truncf .bf16 x ht) (truncf .bf16 w ht) (constant ⟨2, ![R, M]⟩ .f32 0x00000000#32) (ix2 r c)
      = ∑ k : Fin K, x (ix2 r k) * w (ix2 k c) := by
  simp only [matmul]
  rw [Ideal.matmul_constant_zero_apply]
  exact h.sum_eq (fun i => x i) (fun i => w i) r c

/-- The host's `dot_general` at `(r, c)`: the same sum. -/
theorem dotGeneral_apply {d : DotDims ⟨2, ![R, K]⟩ ⟨2, ![K, M]⟩ ⟨2, ![R, M]⟩} (h : PlainDot d)
    (x : FVec Ideal ⟨2, ![R, K]⟩ .f32) (w : FVec Ideal ⟨2, ![K, M]⟩ .f32) (r : Fin R) (c : Fin M) :
    Host.dotGeneral d none x w (ix2 r c) = ∑ k : Fin K, x (ix2 r k) * w (ix2 k c) := by
  simp only [Host.dotGeneral]
  rw [Ideal.dotGeneral_apply]
  exact h.sum_eq (fun i => x i) (fun i => w i) r c

/-- A bias vector `[M]` made a row `[1, M]` and then broadcast over `N` rows reads, at `(n, q)`, the vector at `q`. -/
theorem bias_rows_apply {N : ℕ} (b : FVec Ideal ⟨1, ![M]⟩ .f32)
    (h1 : (⟨1, ![M]⟩ : Shape).BroadcastsInDim ⟨2, ![1, M]⟩ (![1] : Fin 1 → Fin 2))
    (h2 : (⟨2, ![1, M]⟩ : Shape).BroadcastsInDim ⟨2, ![N, M]⟩ (![0, 1] : Fin 2 → Fin 2)) (n : Fin N) (q : Fin M) :
    broadcastInDim ⟨2, ![N, M]⟩ ![0, 1] h2 (broadcastInDim ⟨2, ![1, M]⟩ ![1] h1 b) (ix2 n q) = b (ix1 q) := by
  rw [broadcastInDim_apply _ h2 _ (ix2 n q) (ix2 (0 : Fin 1) q) (fun a => by
    match a with
    | ⟨0, _⟩ => show (0 : ℕ) = if (1 : ℕ) = 1 then 0 else n.val; rw [if_pos rfl]
    | ⟨1, _⟩ => show q.val = if M = 1 then 0 else q.val; split <;> [(have := q.isLt; omega); rfl])]
  exact broadcastInDim_apply _ h1 b (ix2 (0 : Fin 1) q) (ix1 q) (fun a => by
    match a with
    | ⟨0, _⟩ => show q.val = if M = 1 then 0 else q.val; split <;> [(have := q.isLt; omega); rfl])

/-- ROW BY ROW: where row `r` of the tile `xb` is row `n r` of `X` and the bias block's row is the bias vector, the
    tile's `xb · w + bias` at `(r, q)` is the whole `X · w + bias` at `(n r, q)`. -/
theorem affine_rows {N : ℕ}
    {dB : DotDims ⟨2, ![R, K]⟩ ⟨2, ![K, M]⟩ ⟨2, ![R, M]⟩} (hB : PlainDot dB)
    {dW : DotDims ⟨2, ![N, K]⟩ ⟨2, ![K, M]⟩ ⟨2, ![N, M]⟩} (hW : PlainDot dW)
    (xb : FVec Ideal ⟨2, ![R, K]⟩ .f32) (X : FVec Ideal ⟨2, ![N, K]⟩ .f32) (w : FVec Ideal ⟨2, ![K, M]⟩ .f32)
    (b2 : FVec Ideal ⟨2, ![1, M]⟩ .f32) (b : FVec Ideal ⟨1, ![M]⟩ .f32) (n : Fin R → Fin N)
    (hx : ∀ r k, xb (ix2 r k) = X (ix2 (n r) k)) (hb : ∀ q : Fin M, b2 (ix2 (0 : Fin 1) q) = b (ix1 q))
    (ht : FTy.bits .bf16 < FTy.bits .f32) (hsc : (⟨2, ![1, M]⟩ : Shape).ShapeCasts ⟨2, ![1, M]⟩)
    (hbc : (⟨2, ![1, M]⟩ : Shape).Broadcasts ⟨2, ![R, M]⟩)
    (h1 : (⟨1, ![M]⟩ : Shape).BroadcastsInDim ⟨2, ![1, M]⟩ (![1] : Fin 1 → Fin 2))
    (h2 : (⟨2, ![1, M]⟩ : Shape).BroadcastsInDim ⟨2, ![N, M]⟩ (![0, 1] : Fin 2 → Fin 2)) (r : Fin R) (q : Fin M) :
    addf (matmul dB none (truncf .bf16 xb ht) (truncf .bf16 w ht) (constant ⟨2, ![R, M]⟩ .f32 0x00000000#32))
        (broadcastTo ⟨2, ![R, M]⟩ (shapeCast ⟨2, ![1, M]⟩ b2 hsc) hbc) (ix2 r q)
      = addf (Host.dotGeneral dW none X w) (broadcastInDim ⟨2, ![N, M]⟩ ![0, 1] h2 (broadcastInDim ⟨2, ![1, M]⟩ ![1] h1 b)) (ix2 (n r) q) := by
  rw [addf_apply, addf_apply, matmul_zero_apply hB, dotGeneral_apply hW, bias_rows_apply, broadcastTo_1b_ab_apply,
    shapeCast_self, hb]
  exact congrArg (· + b (ix1 q)) (Finset.sum_congr rfl fun k _ => by rw [hx])

/-- The same after the hyperbolic tangent, the kernel's and the host's being one function of an extended real. -/
theorem tanh_affine_rows {N : ℕ}
    {dB : DotDims ⟨2, ![R, K]⟩ ⟨2, ![K, M]⟩ ⟨2, ![R, M]⟩} (hB : PlainDot dB)
    {dW : DotDims ⟨2, ![N, K]⟩ ⟨2, ![K, M]⟩ ⟨2, ![N, M]⟩} (hW : PlainDot dW)
    (xb : FVec Ideal ⟨2, ![R, K]⟩ .f32) (X : FVec Ideal ⟨2, ![N, K]⟩ .f32) (w : FVec Ideal ⟨2, ![K, M]⟩ .f32)
    (b2 : FVec Ideal ⟨2, ![1, M]⟩ .f32) (b : FVec Ideal ⟨1, ![M]⟩ .f32) (n : Fin R → Fin N)
    (hx : ∀ r k, xb (ix2 r k) = X (ix2 (n r) k)) (hb : ∀ q : Fin M, b2 (ix2 (0 : Fin 1) q) = b (ix1 q))
    (ht : FTy.bits .bf16 < FTy.bits .f32) (hsc : (⟨2, ![1, M]⟩ : Shape).ShapeCasts ⟨2, ![1, M]⟩)
    (hbc : (⟨2, ![1, M]⟩ : Shape).Broadcasts ⟨2, ![R, M]⟩)
    (h1 : (⟨1, ![M]⟩ : Shape).BroadcastsInDim ⟨2, ![1, M]⟩ (![1] : Fin 1 → Fin 2))
    (h2 : (⟨2, ![1, M]⟩ : Shape).BroadcastsInDim ⟨2, ![N, M]⟩ (![0, 1] : Fin 2 → Fin 2)) (r : Fin R) (q : Fin M) :
    tanh (addf (matmul dB none (truncf .bf16 xb ht) (truncf .bf16 w ht) (constant ⟨2, ![R, M]⟩ .f32 0x00000000#32))
        (broadcastTo ⟨2, ![R, M]⟩ (shapeCast ⟨2, ![1, M]⟩ b2 hsc) hbc)) (ix2 r q)
      = Host.tanh (addf (Host.dotGeneral dW none X w)
          (broadcastInDim ⟨2, ![N, M]⟩ ![0, 1] h2 (broadcastInDim ⟨2, ![1, M]⟩ ![1] h1 b))) (ix2 (n r) q) :=
  congrArg Ideal.tanh (affine_rows hB hW xb X w b2 b n hx hb ht hsc hbc h1 h2 r q)

end Cert.Lib

end
-- ==== Proof.LibDenseRows.lean ====
/-
  Dense layers read row by row: two general facts beside `LibAffineRows`.

  `plainDot_of_lists`: a dimension-number record over `[R, K]`, `[K, M]`, `[R, M]` whose lists say "contract the left
  operand's axis 1 with the right operand's axis 0, keep the left operand's axis 0 and the right operand's axis 1, no batch
  axis" is the plain matrix product (`PlainDot`), whatever the sizes: every record of that kind, a host product's or a
  matrix-unit product's, gets its `PlainDot` fact by six `rfl`s.

  `relu_affine_rows`: `affine_rows` under a rectifier. A row tile's `max (xb · w + bias row, 0)` — the zero a splat scalar —
  is, row by row, the whole `max (X · w + bias, 0)` — the zero a broadcast rank-0 constant. Nothing here depends on the sizes.
-/
import proofs.«180418_j66314295050521_1_alg».proof.Proof.LibAffineRows

noncomputable section

namespace Cert.Lib

open Idealize.ShloMosaic Idealize.ShloMosaic.ValueIdx

/-- A coordinate of an index depends only on the axis's number. -/
private theorem coord_val_congr {s : Shape} (i : s.Idx) (p q : ℕ) (hp : p < s.rank) (hq : q < s.rank) (h : p = q) :
    (i ⟨p, hp⟩).val = (i ⟨q, hq⟩).val := by subst h; rfl

/-- DIMENSION NUMBERS OF THE PLAIN PRODUCT. A record over `[R, K]`, `[K, M]`, `[R, M]` that contracts the left
    operand's axis 1 with the right operand's axis 0, keeps the left operand's axis 0 and the right operand's axis 1 and
    has no batch axis describes `∑ k, x (r, k) · w (k, c)`: its contraction shape is `[K]`, the left index at result
    `(r, c)` and position `k` is `(r, k)`, the right one `(k, c)`. -/
theorem plainDot_of_lists {R K M : ℕ} (d : DotDims ⟨2, ![R, K]⟩ ⟨2, ![K, M]⟩ ⟨2, ![R, M]⟩)
    (hlc : d.lhsContracting = [1]) (hrc : d.rhsContracting = [0]) (hln : d.lhsNonContracting = [0])
    (hrn : d.rhsNonContracting = [1]) (hlb : d.lhsBatch = []) (hrb : d.rhsBatch = []) : Cert.Lib.PlainDot d where
  rank := by rw [d.rank_contr, hlc]; rfl
  size := by
    have h := d.size_contr 0 (by rw [hlc]; exact Nat.one_pos)
    rw [h]
    have e : d.lhsContracting[0]'(by rw [hlc]; exact Nat.one_pos) = 1 := by simp [hlc]
    rw [e]; rfl
  l0 := fun i q => by
    have hb : (0 : Fin (Shape.rank ⟨2, ![R, K]⟩)) ∉ d.lhsBatch := by rw [hlb]; exact List.not_mem_nil
    have hn : (0 : Fin (Shape.rank ⟨2, ![R, K]⟩)) ∈ d.lhsNonContracting := by rw [hln]; exact List.mem_singleton.mpr rfl
    unfold DotDims.lhsIdx
    rw [dif_neg hb, dif_pos hn]
    simp only [Fin.val_cast]
    exact coord_val_congr i _ 0 _ Nat.zero_lt_two (by simp [hlb, hln])
  l1 := fun i q => d.lhsIdx_val_of_single hlc i q
  r0 := fun i q => d.rhsIdx_val_of_single hrc i q
  r1 := fun i q => by
    have hb : (1 : Fin (Shape.rank ⟨2, ![K, M]⟩)) ∉ d.rhsBatch := by rw [hrb]; exact List.not_mem_nil
    have hn : (1 : Fin (Shape.rank ⟨2, ![K, M]⟩)) ∈ d.rhsNonContracting := by rw [hrn]; exact List.mem_singleton.mpr rfl
    unfold DotDims.rhsIdx
    rw [dif_neg hb, dif_pos hn]
    simp only [Fin.val_cast]
    exact coord_val_congr i _ 1 _ Nat.one_lt_two (by simp [hlb, hln, hrn])

/-- ROW BY ROW, RECTIFIED: the tile's `max (xb · w + bias row, 0)` at `(r, q)` is the whole `max (X · w + bias, 0)` at
    `(n r, q)`; the tile splats the scalar zero, the plain program broadcasts a rank-0 zero constant, and both read the
    same extended real at every index. -/
theorem relu_affine_rows {R K M N : ℕ}
    {dB : DotDims ⟨2, ![R, K]⟩ ⟨2, ![K, M]⟩ ⟨2, ![R, M]⟩} (hB : Cert.Lib.PlainDot dB)
    {dW : DotDims ⟨2, ![N, K]⟩ ⟨2, ![K, M]⟩ ⟨2, ![N, M]⟩} (hW : Cert.Lib.PlainDot dW)
    (xb : FVec Ideal ⟨2, ![R, K]⟩ .f32) (X : FVec Ideal ⟨2, ![N, K]⟩ .f32) (w : FVec Ideal ⟨2, ![K, M]⟩ .f32)
    (b2 : FVec Ideal ⟨2, ![1, M]⟩ .f32) (b : FVec Ideal ⟨1, ![M]⟩ .f32) (n : Fin R → Fin N)
    (hx : ∀ r k, xb (ix2 r k) = X (ix2 (n r) k)) (hb : ∀ q : Fin M, b2 (ix2 (0 : Fin 1) q) = b (ix1 q))
    (ht : FTy.bits .bf16 < FTy.bits .f32) (hsc : (⟨2, ![1, M]⟩ : Shape).ShapeCasts ⟨2, ![1, M]⟩)
    (hbc : (⟨2, ![1, M]⟩ : Shape).Broadcasts ⟨2, ![R, M]⟩)
    (h1 : (⟨1, ![M]⟩ : Shape).BroadcastsInDim ⟨2, ![1, M]⟩ (![1] : Fin 1 → Fin 2))
    (h2 : (⟨2, ![1, M]⟩ : Shape).BroadcastsInDim ⟨2, ![N, M]⟩ (![0, 1] : Fin 2 → Fin 2))
    (hz : (⟨0, ![]⟩ : Shape).BroadcastsInDim ⟨2, ![N, M]⟩ (![] : Fin 0 → Fin 2)) (r : Fin R) (q : Fin M) :
    maximumf (addf (matmul dB none (truncf .bf16 xb ht) (truncf .bf16 w ht) (constant ⟨2, ![R, M]⟩ .f32 0x00000000#32))
          (broadcastTo ⟨2, ![R, M]⟩ (shapeCast ⟨2, ![1, M]⟩ b2 hsc) hbc))
        (broadcast ⟨2, ![R, M]⟩ (Scalar.ofBits .f32 0x00000000#32)) (ix2 r q)
      = maximumf (addf (Host.dotGeneral dW none X w)
            (broadcastInDim ⟨2, ![N, M]⟩ ![0, 1] h2 (broadcastInDim ⟨2, ![1, M]⟩ ![1] h1 b)))
          (broadcastInDim ⟨2, ![N, M]⟩ ![] hz (constant ⟨0, ![]⟩ .f32 0x00000000#32)) (ix2 (n r) q) := by
  rw [maximumf_apply, maximumf_apply, Cert.Lib.affine_rows hB hW xb X w b2 b n hx hb ht hsc hbc h1 h2 r q, broadcast_apply,
    broadcastInDim_apply _ hz _ (ix2 (n r) q) ix0 (fun a => a.elim0), constant_apply]
  rfl

end Cert.Lib

end
-- ==== Proof.LinearRows.lean ====
/-
  Row by row, the first pipeline's tile product is the whole product.

  The body narrows its `[2000, 128]` tile of the node features and the resident `[128, 128]` weight block to bf16 and
  multiplies them on the matrix unit into zeros. Over the extended reals narrowing is the identity and the product is the
  textbook sum over the contracted index, so row `r` of the tile's result is row `n r` of `x · w` as soon as row `r` of
  the tile is row `n r` of `x` and the weight block is the narrowed `w`.
-/
import proofs.«180418_j66314295050521_1_alg».proof.Proof.Gen.KernelIdeal.Skeleton
import proofs.«180418_j66314295050521_1_alg».proof.Proof.Spec
import proofs.«180418_j66314295050521_1_alg».proof.Proof.LibAffineRows
import proofs.«180418_j66314295050521_1_alg».proof.Proof.LibDenseRows

noncomputable section

namespace Cert.KernelIdeal.Rows

open Idealize.ShloMosaic Idealize.ShloMosaic.ValueIdx Cert.KernelIdeal Cert.KernelIdeal.Gen

/-- The tile's record is the plain `[2000, 128] · [128, 128]` product. -/
theorem plain_tile_128_128 :
    Cert.Lib.PlainDot (R := 2000) (K := 128) (M := 128) dot_S2000x128_S128x128_S2000x128_1_0_0_1_n_n :=
  Cert.Lib.plainDot_of_lists _ rfl rfl rfl rfl rfl rfl

/-- The whole array's record is the plain `[100000, 128] · [128, 128]` product. -/
theorem plain_whole_128_128 :
    Cert.Lib.PlainDot (R := 100000) (K := 128) (M := 128)
      Cert.ReferenceIdeal.dot_S100000x128_S128x128_S100000x128_1_0_0_1_n_n :=
  Cert.Lib.plainDot_of_lists _ rfl rfl rfl rfl rfl rfl

/-- Row `r` of the tile's product is row `n r` of the whole product. -/
theorem linear_rows (xb : Vec Ideal S2000x128 .f32) (wb : Vec Ideal S128x128 .bf16)
    (x : FVec Ideal S100000x128 .f32) (w : FVec Ideal S128x128 .f32) (n : Fin 2000 → Fin 100000)
    (hx : ∀ (r : Fin 2000) (k : Fin 128), xb (ix2 r k) = x (ix2 (n r) k))
    (hw : wb = truncf .bf16 w bitsLt_bf16_f32) (r : Fin 2000) (q : Fin 128) :
    k0_pay1 (F := Ideal) xb wb (ix2 r q) = Cert.Spec.linear (F := Ideal) x w (ix2 (n r) q) := by
  subst hw
  unfold k0_pay1 Cert.Spec.linear
  rw [shapeCast_self]
  rw [Cert.Lib.matmul_zero_apply plain_tile_128_128, Cert.Lib.dotGeneral_apply plain_whole_128_128]
  exact Finset.sum_congr rfl fun k _ => by rw [hx]

end Cert.KernelIdeal.Rows

end
-- ==== Proof.Region0.lean ====
/-
  The first pipeline's result array is the whole product `x · w`.

  The grid has `50` points; point `t` reads rows `2000 t … 2000 t + 1999` of the node features and the whole weight
  block, and writes back rows `2000 t … 2000 t + 1999` of the result. Row by row the tile's product is the whole product
  (`Rows.linear_rows`), the `50` row blocks tile the array, so the array ends holding `Spec.linear x w`.
-/
import proofs.«180418_j66314295050521_1_alg».proof.Proof.Gen.KernelIdeal.Frame
import proofs.«180418_j66314295050521_1_alg».proof.Proof.LinearRows
import Idealize.ShloMosaic.Lib.Pipeline.Value

noncomputable section

namespace Cert.KernelIdeal.Linear

open Idealize.ShloMosaic Idealize.ShloMosaic.TcCoe Idealize.ShloMosaic.ValueIdx Idealize.SL.Sem
open Idealize.ShloMosaic.Pipeline (Dat)
open Cert.KernelIdeal Cert.KernelIdeal.Gen

variable (V : (c : Dev nD) → (b : Ref sig .tc) → Buf (Elt Ideal) ((c : Thread nD τ).loc b))

/-- The zero offsets of a whole-tile access, as the constant function. -/
theorem zero_offsets : (![0, 0] : Fin 2 → Nat) = fun _ => 0 := funext fun a => by fin_cases a <;> rfl

/-- The three index maps over the grid: the node features' and the result's row-block index is the point itself, their
    column-block index is `0`; the weight block's index is `(0, 0)` at every point. -/
theorem index_maps : ∀ t : Fin cfg0.N, win0_0.index t (0 : Fin 2) = t.val ∧ win0_0.index t (1 : Fin 2) = 0
    ∧ win0_1.index t (0 : Fin 2) = 0 ∧ win0_1.index t (1 : Fin 2) = 0
    ∧ win0_2.index t (0 : Fin 2) = t.val ∧ win0_2.index t (1 : Fin 2) = 0 :=
  (by decide +kernel : ∀ t : Fin grid0.N, _)

/-- Row `r` of the node features' tile at point `t` is row `2000 t + r` of the node features: an element of a block
    sits, on each axis, at block index × block size + its coordinate inside the block. -/
theorem tile_rows (c : Dev nD) (t : Fin cfg0.N) (r : Fin 2000) (k : Fin 128) (h : 2000 * t.val + r.val < 100000) :
    (iblk0 (F := Ideal) V c 0 t : Vec Ideal S2000x128 .f32) (ix2 r k)
      = (V c main_arg0 : S100000x128.Idx → Elt Ideal .f32) (ix2 ⟨2000 * t.val + r.val, h⟩ k) := by
  obtain ⟨e0, e1, -⟩ := index_maps t
  unfold iblk0
  rw [View.read_apply]
  show V c main_arg0 _ = V c main_arg0 _
  congr 1
  funext a; apply Fin.ext
  match a with
  | ⟨0, _⟩ => show win0_0.index t (0 : Fin 2) * 2000 + 1 * r.val = 2000 * t.val + r.val; omega
  | ⟨1, _⟩ => show win0_0.index t (1 : Fin 2) * 128 + 1 * k.val = k.val; omega

/-- The weight block at every point is the whole weight array: block `(0, 0)` of full size. -/
theorem resident (c : Dev nD) (t : Fin cfg0.N) :
    (iblk0 (F := Ideal) V c 1 t : Vec Ideal S128x128 .bf16) = (V c main_v32 : S128x128.Idx → Elt Ideal .bf16) := by
  obtain ⟨-, -, e0, e1, -⟩ := index_maps t
  unfold iblk0
  funext j
  rw [View.read_apply]
  show V c main_v32 _ = V c main_v32 _
  congr 1
  funext a; apply Fin.ext
  match a with
  | ⟨0, _⟩ => show win0_1.index t (0 : Fin 2) * 128 + 1 * (j 0).val = (j 0).val; omega
  | ⟨1, _⟩ => show win0_1.index t (1 : Fin 2) * 128 + 1 * (j 1).val = (j 1).val; omega

/-- What point `t` writes back is block `t` of `x · w`: the tile's one store covers it, its payload at row `r` is the
    tile product's row `r`, which is row `2000 t + r` of the whole product, and that is where row `r` of the result's
    block sits. -/
theorem written_back (c : Dev nD) (x : FVec Ideal S100000x128 .f32) (w : FVec Ideal S128x128 .f32)
    (hx : V c main_arg0 = x) (hw : V c main_v32 = truncf .bf16 w bitsLt_bf16_f32) (t : Fin cfg0.N) :
    (dat0 (F := Ideal) V c).flushed 2 t
      = ((cfg0.win 2).blk t).view.read (Elt Ideal) (Cert.Spec.linear (F := Ideal) x w) := by
  subst hx
  show (cfg0.win 2).cut (grid0.coords t) ((dat0 V c).after 2 t) = _
  rw [after0_2]
  unfold out0_2
  rw [View.canon_unit_zero zero_offsets]
  simp only [View.ld_unit_zero (S := S2000x128) zero_offsets, View.ld_unit_zero (S := S128x128) zero_offsets]
  have ht : t.val < 50 := by have := t.isLt; have hN : cfg0.N = 50 := N_0; omega
  obtain ⟨-, -, -, -, e0, e1⟩ := index_maps t
  funext j
  obtain ⟨r, q, rfl⟩ : ∃ (r : Fin 2000) (q : Fin 128), j = ix2 r q := ⟨j 0, j 1, eq_ix2 j⟩
  have hr := r.isLt
  have hemb : ((cfg0.win 2).blk t).view.emb (ix2 r q)
      = (ix2 (⟨2000 * t.val + r.val, by omega⟩ : Fin 100000) q : S100000x128.Idx) := by
    funext a; apply Fin.ext
    match a with
    | ⟨0, _⟩ => show win0_2.index t (0 : Fin 2) * 2000 + 1 * r.val = 2000 * t.val + r.val; omega
    | ⟨1, _⟩ => show win0_2.index t (1 : Fin 2) * 128 + 1 * q.val = q.val; omega
  show k0_pay1 (F := Ideal) (iblk0 V c 0 t) (iblk0 V c 1 t) (ix2 r q)
      = Cert.Spec.linear (F := Ideal) (V c main_arg0) w (((cfg0.win 2).blk t).view.emb (ix2 r q))
  rw [hemb]
  exact Rows.linear_rows (iblk0 V c 0 t) (iblk0 V c 1 t) (V c main_arg0) w
    (fun r => ⟨2000 * t.val + r.val, by have := r.isLt; omega⟩)
    (fun r k => tile_rows V c t r k _) ((resident V c t).trans hw) r q

/-- An index of the result array is in point `t`'s block iff each coordinate is in the block's range on its axis. -/
theorem mem_block (t : Fin cfg0.N) (i : S100000x128.Idx) :
    i ∈ ((cfg0.win 2).blk t).view.set ↔ ∀ a : Fin 2, win0_2.index t a * S2000x128.size a ≤ (i a).val
      ∧ (i a).val < win0_2.index t a * S2000x128.size a + S2000x128.size a := by
  show i ∈ ((View.whole main_v33).slice (win0_2.rect t)).set ↔ _
  rw [View.set_slice_whole, Rect.mem_set_unit]
  exact Iff.rfl

/-- The `50` row blocks tile the result array: row `i` is in the block of point `i / 2000`, which is written back. -/
theorem rows_covered (i : S100000x128.Idx) :
    ∃ t : Fin cfg0.N, (cfg0.win 2).flush t = true ∧ i ∈ ((cfg0.win 2).blk t).view.set := by
  have hi0 : (i 0).val < 100000 := (i 0).isLt
  have hi1 : (i 1).val < 128 := (i 1).isLt
  have hN : cfg0.N = 50 := N_0
  obtain ⟨t, ht⟩ : ∃ t : Fin cfg0.N, t.val = (i 0).val / 2000 := ⟨⟨(i 0).val / 2000, by omega⟩, rfl⟩
  obtain ⟨-, -, -, -, e0, e1⟩ := index_maps t
  refine ⟨t, flush0_2 t, ?_⟩
  rw [mem_block]
  intro a
  match a with
  | ⟨0, _⟩ =>
    show win0_2.index t (0 : Fin 2) * 2000 ≤ (i 0).val ∧ (i 0).val < win0_2.index t (0 : Fin 2) * 2000 + 2000
    omega
  | ⟨1, _⟩ =>
    show win0_2.index t (1 : Fin 2) * 128 ≤ (i 1).val ∧ (i 1).val < win0_2.index t (1 : Fin 2) * 128 + 128
    omega

/-- After the first pipeline its result array is `x · w`, `x` the node features and `w` the weight matrix whose narrowed
    copy the region finds in its second operand. -/
theorem value (c : Dev nD) (x : FVec Ideal S100000x128 .f32) (w : FVec Ideal S128x128 .f32)
    (hx : V c main_arg0 = x) (hw : V c main_v32 = truncf .bf16 w bitsLt_bf16_f32) :
    (dat0 (F := Ideal) V c).arrAt 2 cfg0.N = Cert.Spec.linear (F := Ideal) x w := by
  exact (dat0 (F := Ideal) V c).arrAt_eq_of_cover 2 (Cert.Spec.linear (F := Ideal) x w)
    (fun t _ => written_back V c x w hx hw t) rows_covered

end Cert.KernelIdeal.Linear

end
-- ==== Proof.MlpRows.lean ====
/-
  Row by row, the second pipeline's tile computes the dense layers of the whole network.

  On a tile of `2000` rows the body adds the convolution's bias row, rectifies, adds the residual rows, and then runs
  three dense layers — each a matrix-unit product of bf16-narrowed operands into zeros plus a bias row, the first two
  rectified. Every step acts on a row by itself, narrowing is the identity over the extended reals and each product is the
  textbook sum, so row `r` of the tile's result is row `n r` of `Spec.mlp` as soon as the tile's rows of the aggregated
  features and of the node features are rows `n r` of the whole arrays and the resident blocks are the (reshaped or
  narrowed) weights.
-/
import proofs.«180418_j66314295050521_1_alg».proof.Proof.Gen.KernelIdeal.Skeleton
import proofs.«180418_j66314295050521_1_alg».proof.Proof.Spec
import proofs.«180418_j66314295050521_1_alg».proof.Proof.LibAffineRows
import proofs.«180418_j66314295050521_1_alg».proof.Proof.LibDenseRows

noncomputable section

namespace Cert.KernelIdeal.Rows

open Idealize.ShloMosaic Idealize.ShloMosaic.ValueIdx Cert.KernelIdeal Cert.KernelIdeal.Gen

/-! ## The six records are plain products -/

/-- The tile's `[2000, 128] · [128, 512]` product. -/
theorem plain_tile_128_512 :
    Cert.Lib.PlainDot (R := 2000) (K := 128) (M := 512) dot_S2000x128_S128x512_S2000x512_1_0_0_1_n_n :=
  Cert.Lib.plainDot_of_lists _ rfl rfl rfl rfl rfl rfl

/-- The tile's `[2000, 512] · [512, 256]` product. -/
theorem plain_tile_512_256 :
    Cert.Lib.PlainDot (R := 2000) (K := 512) (M := 256) dot_S2000x512_S512x256_S2000x256_1_0_0_1_n_n :=
  Cert.Lib.plainDot_of_lists _ rfl rfl rfl rfl rfl rfl

/-- The tile's `[2000, 256] · [256, 1]` product. -/
theorem plain_tile_256_1 :
    Cert.Lib.PlainDot (R := 2000) (K := 256) (M := 1) dot_S2000x256_S256x1_S2000x1_1_0_0_1_n_n :=
  Cert.Lib.plainDot_of_lists _ rfl rfl rfl rfl rfl rfl

/-- The whole `[100000, 128] · [128, 512]` product. -/
theorem plain_whole_128_512 :
    Cert.Lib.PlainDot (R := 100000) (K := 128) (M := 512)
      Cert.ReferenceIdeal.dot_S100000x128_S128x512_S100000x512_1_0_0_1_n_n :=
  Cert.Lib.plainDot_of_lists _ rfl rfl rfl rfl rfl rfl

/-- The whole `[100000, 512] · [512, 256]` product. -/
theorem plain_whole_512_256 :
    Cert.Lib.PlainDot (R := 100000) (K := 512) (M := 256)
      Cert.ReferenceIdeal.dot_S100000x512_S512x256_S100000x256_1_0_0_1_n_n :=
  Cert.Lib.plainDot_of_lists _ rfl rfl rfl rfl rfl rfl

/-- The whole `[100000, 256] · [256, 1]` product. -/
theorem plain_whole_256_1 :
    Cert.Lib.PlainDot (R := 100000) (K := 256) (M := 1)
      Cert.ReferenceIdeal.dot_S100000x256_S256x1_S100000x1_1_0_0_1_n_n :=
  Cert.Lib.plainDot_of_lists _ rfl rfl rfl rfl rfl rfl

/-! ## The four layers, row by row -/

/-- THE CONVOLUTION'S BIAS, RECTIFIER AND RESIDUAL. Where the tile's rows of the aggregated features and of the node
    features are rows `n r` of the whole arrays, `max (v0 + bias row, 0) + v8` at `(r, k)` is `Spec.hidden0` at
    `(n r, k)`: every operation acts on one entry, the bias row reads the bias vector at `k` on both sides. -/
theorem hidden0_rows (v0 v8 : FVec Ideal S2000x128 .f32) (conv x : FVec Ideal S100000x128 .f32) (bg : FVec Ideal S128 .f32)
    (n : Fin 2000 → Fin 100000)
    (h0 : ∀ (r : Fin 2000) (k : Fin 128), v0 (ix2 r k) = conv (ix2 (n r) k))
    (h8 : ∀ (r : Fin 2000) (k : Fin 128), v8 (ix2 r k) = x (ix2 (n r) k)) (r : Fin 2000) (k : Fin 128) :
    addf (maximumf (addf (shapeCast S2000x128 v0 shapeCasts_S2000x128_S2000x128)
            (broadcastTo S2000x128 (shapeCast S1x128 (shapeCast S1x128 bg shapeCasts_S128_S1x128) shapeCasts_S1x128_S1x128)
              broadcasts_S1x128_S2000x128))
          (broadcast S2000x128 (Scalar.ofBits .f32 0x00000000#32))) v8 (ix2 r k)
      = Cert.Spec.hidden0 (F := Ideal) conv x bg (ix2 (n r) k) := by
  unfold Cert.Spec.hidden0
  rw [addf_apply, maximumf_apply, addf_apply, shapeCast_self v0, shapeCast_self (shapeCast S1x128 bg shapeCasts_S128_S1x128),
    broadcastTo_1b_ab_apply, shapeCast_a_1a_apply, broadcast_apply, h0, h8]
  rw [addf_apply, maximumf_apply, addf_apply, Cert.Lib.bias_rows_apply,
    broadcastInDim_apply _ Cert.ReferenceIdeal.Gen.bcast_S_S100000x128 _ (ix2 (n r) k) ix0 (fun a => a.elim0), constant_apply]
  rfl

/-- THE FIRST DENSE LAYER: `max (tile · W1 + bias row, 0)` at `(r, q)` is `Spec.hidden1` at `(n r, q)`. -/
theorem hidden1_rows (a : FVec Ideal S2000x128 .f32) (A : FVec Ideal S100000x128 .f32) (w1 : FVec Ideal S128x512 .f32)
    (b1 : FVec Ideal S512 .f32) (n : Fin 2000 → Fin 100000)
    (ha : ∀ (r : Fin 2000) (k : Fin 128), a (ix2 r k) = A (ix2 (n r) k)) (r : Fin 2000) (q : Fin 512) :
    maximumf (addf (matmul dot_S2000x128_S128x512_S2000x512_1_0_0_1_n_n none (truncf .bf16 a bitsLt_bf16_f32)
            (shapeCast S128x512 (truncf .bf16 w1 bitsLt_bf16_f32) shapeCasts_S128x512_S128x512)
            (constant S2000x512 .f32 0x00000000#32))
          (broadcastTo S2000x512 (shapeCast S1x512 (shapeCast S1x512 b1 shapeCasts_S512_S1x512) shapeCasts_S1x512_S1x512)
            broadcasts_S1x512_S2000x512))
        (broadcast S2000x512 (Scalar.ofBits .f32 0x00000000#32)) (ix2 r q)
      = Cert.Spec.hidden1 (F := Ideal) A w1 b1 (ix2 (n r) q) := by
  unfold Cert.Spec.hidden1
  rw [shapeCast_self (truncf .bf16 w1 bitsLt_bf16_f32)]
  exact Cert.Lib.relu_affine_rows plain_tile_128_512 plain_whole_128_512 a A w1 (shapeCast S1x512 b1 shapeCasts_S512_S1x512) b1 n ha
    (fun q => shapeCast_a_1a_apply b1 shapeCasts_S512_S1x512 0 q) bitsLt_bf16_f32 shapeCasts_S1x512_S1x512
    broadcasts_S1x512_S2000x512 Cert.ReferenceIdeal.Gen.bcast_S512_S1x512_1 Cert.ReferenceIdeal.Gen.bcast_S1x512_S100000x512_0_1
    Cert.ReferenceIdeal.Gen.bcast_S_S100000x512 r q

/-- THE SECOND DENSE LAYER: `max (tile · W2 + bias row, 0)` at `(r, q)` is `Spec.hidden2` at `(n r, q)`. -/
theorem hidden2_rows (a : FVec Ideal S2000x512 .f32) (A : FVec Ideal Cert.ReferenceIdeal.S100000x512 .f32) (w2 : FVec Ideal S512x256 .f32)
    (b2 : FVec Ideal S256 .f32) (n : Fin 2000 → Fin 100000)
    (ha : ∀ (r : Fin 2000) (k : Fin 512), a (ix2 r k) = A (ix2 (n r) k)) (r : Fin 2000) (q : Fin 256) :
    maximumf (addf (matmul dot_S2000x512_S512x256_S2000x256_1_0_0_1_n_n none (truncf .bf16 a bitsLt_bf16_f32)
            (shapeCast S512x256 (truncf .bf16 w2 bitsLt_bf16_f32) shapeCasts_S512x256_S512x256)
            (constant S2000x256 .f32 0x00000000#32))
          (broadcastTo S2000x256 (shapeCast S1x256 (shapeCast S1x256 b2 shapeCasts_S256_S1x256) shapeCasts_S1x256_S1x256)
            broadcasts_S1x256_S2000x256))
        (broadcast S2000x256 (Scalar.ofBits .f32 0x00000000#32)) (ix2 r q)
      = Cert.Spec.hidden2 (F := Ideal) A w2 b2 (ix2 (n r) q) := by
  unfold Cert.Spec.hidden2
  rw [shapeCast_self (truncf .bf16 w2 bitsLt_bf16_f32)]
  exact Cert.Lib.relu_affine_rows plain_tile_512_256 plain_whole_512_256 a A w2 (shapeCast S1x256 b2 shapeCasts_S256_S1x256) b2 n ha
    (fun q => shapeCast_a_1a_apply b2 shapeCasts_S256_S1x256 0 q) bitsLt_bf16_f32 shapeCasts_S1x256_S1x256
    broadcasts_S1x256_S2000x256 Cert.ReferenceIdeal.Gen.bcast_S256_S1x256_1 Cert.ReferenceIdeal.Gen.bcast_S1x256_S100000x256_0_1
    Cert.ReferenceIdeal.Gen.bcast_S_S100000x256 r q

/-- THE READ-OUT: `tile · W3 + bias` at `(r, 0)` is `Spec.readout` at `(n r, 0)`. -/
theorem readout_rows (a : FVec Ideal S2000x256 .f32) (A : FVec Ideal Cert.ReferenceIdeal.S100000x256 .f32) (w3 : FVec Ideal S256x1 .f32)
    (b3 : FVec Ideal S1 .f32) (n : Fin 2000 → Fin 100000)
    (ha : ∀ (r : Fin 2000) (k : Fin 256), a (ix2 r k) = A (ix2 (n r) k)) (r : Fin 2000) (q : Fin 1) :
    addf (matmul dot_S2000x256_S256x1_S2000x1_1_0_0_1_n_n none (truncf .bf16 a bitsLt_bf16_f32)
          (shapeCast S256x1 (truncf .bf16 w3 bitsLt_bf16_f32) shapeCasts_S256x1_S256x1) (constant S2000x1 .f32 0x00000000#32))
        (broadcastTo S2000x1 (shapeCast S1x1 (shapeCast S1x1 b3 shapeCasts_S1_S1x1) shapeCasts_S1x1_S1x1)
          broadcasts_S1x1_S2000x1) (ix2 r q)
      = Cert.Spec.readout (F := Ideal) A w3 b3 (ix2 (n r) q) := by
  unfold Cert.Spec.readout
  rw [shapeCast_self (truncf .bf16 w3 bitsLt_bf16_f32)]
  exact Cert.Lib.affine_rows plain_tile_256_1 plain_whole_256_1 a A w3 (shapeCast S1x1 b3 shapeCasts_S1_S1x1) b3 n ha
    (fun q => shapeCast_a_1a_apply b3 shapeCasts_S1_S1x1 0 q) bitsLt_bf16_f32 shapeCasts_S1x1_S1x1
    broadcasts_S1x1_S2000x1 Cert.ReferenceIdeal.Gen.bcast_S1_S1x1_1 Cert.ReferenceIdeal.Gen.bcast_S1x1_S100000x1_0_1 r q

/-- Row `r` of the tile's output column is row `n r` of the network's dense part. -/
theorem mlp_rows (v0 v8 : Vec Ideal S2000x128 .f32) (v2 : Vec Ideal S1x128 .f32) (v11 : Vec Ideal S128x512 .bf16)
    (v14 : Vec Ideal S1x512 .f32) (v21 : Vec Ideal S512x256 .bf16) (v24 : Vec Ideal S1x256 .f32)
    (v31 : Vec Ideal S256x1 .bf16) (v34 : Vec Ideal S1x1 .f32)
    (conv x : FVec Ideal S100000x128 .f32) (bg : FVec Ideal S128 .f32)
    (w1 : FVec Ideal S128x512 .f32) (b1 : FVec Ideal S512 .f32) (w2 : FVec Ideal S512x256 .f32) (b2 : FVec Ideal S256 .f32)
    (w3 : FVec Ideal S256x1 .f32) (b3 : FVec Ideal S1 .f32) (n : Fin 2000 → Fin 100000)
    (h0 : ∀ (r : Fin 2000) (k : Fin 128), v0 (ix2 r k) = conv (ix2 (n r) k))
    (h8 : ∀ (r : Fin 2000) (k : Fin 128), v8 (ix2 r k) = x (ix2 (n r) k))
    (h2 : v2 = shapeCast S1x128 bg shapeCasts_S128_S1x128) (h11 : v11 = truncf .bf16 w1 bitsLt_bf16_f32)
    (h14 : v14 = shapeCast S1x512 b1 shapeCasts_S512_S1x512) (h21 : v21 = truncf .bf16 w2 bitsLt_bf16_f32)
    (h24 : v24 = shapeCast S1x256 b2 shapeCasts_S256_S1x256) (h31 : v31 = truncf .bf16 w3 bitsLt_bf16_f32)
    (h34 : v34 = shapeCast S1x1 b3 shapeCasts_S1_S1x1) (r : Fin 2000) :
    k1_pay1 (F := Ideal) (k1_pay2 v0 v2 v8 v11 v14 v21 v24 v31) v34 (ix2 r (0 : Fin 1))
      = Cert.Spec.mlp (F := Ideal) conv x bg w1 b1 w2 b2 w3 b3 (ix2 (n r) (0 : Fin 1)) := by
  subst h2 h11 h14 h21 h24 h31 h34
  unfold k1_pay1 k1_pay2 Cert.Spec.mlp
  exact readout_rows _ _ w3 b3 n (fun r k => hidden2_rows _ _ w2 b2 n (fun r k => hidden1_rows _ _ w1 b1 n
    (fun r k => hidden0_rows v0 v8 conv x bg n h0 h8 r k) r k) r k) r 0

end Cert.KernelIdeal.Rows

end
-- ==== Proof.Region1.lean ====
/-
  The second pipeline's result array is the network's dense part, `Spec.mlp`.

  The grid has `50` points; point `t` reads rows `2000 t … 2000 t + 1999` of the aggregated features and of the node
  features and the whole of every bias row and weight block, and writes back rows `2000 t … 2000 t + 1999` of the one-column
  result. Row by row the tile computes the dense layers of the whole arrays (`Rows.mlp_rows`), the `50` row blocks tile the
  array, so the array ends holding `Spec.mlp` of what the region finds in its operands.
-/
import proofs.«180418_j66314295050521_1_alg».proof.Proof.Gen.KernelIdeal.Frame
import proofs.«180418_j66314295050521_1_alg».proof.Proof.MlpRows
import Idealize.ShloMosaic.Lib.Pipeline.Value

noncomputable section

namespace Cert.KernelIdeal.Mlp

open Idealize.ShloMosaic Idealize.ShloMosaic.TcCoe Idealize.ShloMosaic.ValueIdx Idealize.SL.Sem
open Idealize.ShloMosaic.Pipeline (Dat)
open Cert.KernelIdeal Cert.KernelIdeal.Gen

variable (V : (c : Dev nD) → (b : Ref sig .tc) → Buf (Elt Ideal) ((c : Thread nD τ).loc b))

/-- The zero offsets of a whole-tile access, as the constant function. -/
theorem zero_offsets : (![0, 0] : Fin 2 → Nat) = fun _ => 0 := funext fun a => by fin_cases a <;> rfl

/-- The ten index maps over the grid: the aggregated features', the node features' and the result's row-block index is the
    point itself, their column-block index is `0`; every bias row's and weight block's index is `(0, 0)` at every point. -/
theorem index_maps : ∀ t : Fin cfg1.N, win1_0.index t (0 : Fin 2) = t.val ∧ win1_0.index t (1 : Fin 2) = 0
    ∧ win1_1.index t (0 : Fin 2) = t.val ∧ win1_1.index t (1 : Fin 2) = 0
    ∧ win1_2.index t (0 : Fin 2) = 0 ∧ win1_2.index t (1 : Fin 2) = 0
    ∧ win1_3.index t (0 : Fin 2) = 0 ∧ win1_3.index t (1 : Fin 2) = 0
    ∧ win1_4.index t (0 : Fin 2) = 0 ∧ win1_4.index t (1 : Fin 2) = 0
    ∧ win1_5.index t (0 : Fin 2) = 0 ∧ win1_5.index t (1 : Fin 2) = 0
    ∧ win1_6.index t (0 : Fin 2) = 0 ∧ win1_6.index t (1 : Fin 2) = 0
    ∧ win1_7.index t (0 : Fin 2) = 0 ∧ win1_7.index t (1 : Fin 2) = 0
    ∧ win1_8.index t (0 : Fin 2) = 0 ∧ win1_8.index t (1 : Fin 2) = 0
    ∧ win1_9.index t (0 : Fin 2) = t.val ∧ win1_9.index t (1 : Fin 2) = 0 :=
  (by decide +kernel : ∀ t : Fin grid1.N, _)

/-- Row `r` of the aggregated features' tile at point `t` is row `2000 t + r` of the aggregated features: an element of
    a block sits, on each axis, at block index × block size + its coordinate inside the block. -/
theorem tile_rows_conv (c : Dev nD) (t : Fin cfg1.N) (r : Fin 2000) (k : Fin 128) (h : 2000 * t.val + r.val < 100000) :
    (iblk1 (F := Ideal) V c 0 t : Vec Ideal S2000x128 .f32) (ix2 r k)
      = (V c main_v46 : S100000x128.Idx → Elt Ideal .f32) (ix2 ⟨2000 * t.val + r.val, h⟩ k) := by
  obtain ⟨e0, e1, -⟩ := index_maps t
  unfold iblk1
  rw [View.read_apply]
  show V c main_v46 _ = V c main_v46 _
  congr 1
  funext a; apply Fin.ext
  match a with
  | ⟨0, _⟩ => show win1_0.index t (0 : Fin 2) * 2000 + 1 * r.val = 2000 * t.val + r.val; omega
  | ⟨1, _⟩ => show win1_0.index t (1 : Fin 2) * 128 + 1 * k.val = k.val; omega

/-- Row `r` of the node features' tile at point `t` is row `2000 t + r` of the node features. -/
theorem tile_rows_x (c : Dev nD) (t : Fin cfg1.N) (r : Fin 2000) (k : Fin 128) (h : 2000 * t.val + r.val < 100000) :
    (iblk1 (F := Ideal) V c 1 t : Vec Ideal S2000x128 .f32) (ix2 r k)
      = (V c main_arg0 : S100000x128.Idx → Elt Ideal .f32) (ix2 ⟨2000 * t.val + r.val, h⟩ k) := by
  obtain ⟨-, -, e0, e1, -⟩ := index_maps t
  unfold iblk1
  rw [View.read_apply]
  show V c main_arg0 _ = V c main_arg0 _
  congr 1
  funext a; apply Fin.ext
  match a with
  | ⟨0, _⟩ => show win1_1.index t (0 : Fin 2) * 2000 + 1 * r.val = 2000 * t.val + r.val; omega
  | ⟨1, _⟩ => show win1_1.index t (1 : Fin 2) * 128 + 1 * k.val = k.val; omega

/-- The convolution's bias row at every point is the whole bias row: block `(0, 0)` of full size. -/
theorem resident_2 (c : Dev nD) (t : Fin cfg1.N) :
    (iblk1 (F := Ideal) V c 2 t : Vec Ideal S1x128 .f32) = (V c main_v47 : S1x128.Idx → Elt Ideal .f32) := by
  obtain ⟨-, -, -, -, e0, e1, -⟩ := index_maps t
  unfold iblk1
  funext j
  rw [View.read_apply]
  show V c main_v47 _ = V c main_v47 _
  congr 1
  funext a; apply Fin.ext
  match a with
  | ⟨0, _⟩ => show win1_2.index t (0 : Fin 2) * 1 + 1 * (j 0).val = (j 0).val; omega
  | ⟨1, _⟩ => show win1_2.index t (1 : Fin 2) * 128 + 1 * (j 1).val = (j 1).val; omega

/-- The first dense layer's weight block at every point is the whole narrowed weight array. -/
theorem resident_3 (c : Dev nD) (t : Fin cfg1.N) :
    (iblk1 (F := Ideal) V c 3 t : Vec Ideal S128x512 .bf16) = (V c main_v51 : S128x512.Idx → Elt Ideal .bf16) := by
  obtain ⟨-, -, -, -, -, -, e0, e1, -⟩ := index_maps t
  unfold iblk1
  funext j
  rw [View.read_apply]
  show V c main_v51 _ = V c main_v51 _
  congr 1
  funext a; apply Fin.ext
  match a with
  | ⟨0, _⟩ => show win1_3.index t (0 : Fin 2) * 128 + 1 * (j 0).val = (j 0).val; omega
  | ⟨1, _⟩ => show win1_3.index t (1 : Fin 2) * 512 + 1 * (j 1).val = (j 1).val; omega

/-- The first dense layer's bias row at every point is the whole bias row. -/
theorem resident_4 (c : Dev nD) (t : Fin cfg1.N) :
    (iblk1 (F := Ideal) V c 4 t : Vec Ideal S1x512 .f32) = (V c main_v48 : S1x512.Idx → Elt Ideal .f32) := by
  obtain ⟨-, -, -, -, -, -, -, -, e0, e1, -⟩ := index_maps t
  unfold iblk1
  funext j
  rw [View.read_apply]
  show V c main_v48 _ = V c main_v48 _
  congr 1
  funext a; apply Fin.ext
  match a with
  | ⟨0, _⟩ => show win1_4.index t (0 : Fin 2) * 1 + 1 * (j 0).val = (j 0).val; omega
  | ⟨1, _⟩ => show win1_4.index t (1 : Fin 2) * 512 + 1 * (j 1).val = (j 1).val; omega

/-- The second dense layer's weight block at every point is the whole narrowed weight array. -/
theorem resident_5 (c : Dev nD) (t : Fin cfg1.N) :
    (iblk1 (F := Ideal) V c 5 t : Vec Ideal S512x256 .bf16) = (V c main_v52 : S512x256.Idx → Elt Ideal .bf16) := by
  obtain ⟨-, -, -, -, -, -, -, -, -, -, e0, e1, -⟩ := index_maps t
  unfold iblk1
  funext j
  rw [View.read_apply]
  show V c main_v52 _ = V c main_v52 _
  congr 1
  funext a; apply Fin.ext
  match a with
  | ⟨0, _⟩ => show win1_5.index t (0 : Fin 2) * 512 + 1 * (j 0).val = (j 0).val; omega
  | ⟨1, _⟩ => show win1_5.index t (1 : Fin 2) * 256 + 1 * (j 1).val = (j 1).val; omega

/-- The second dense layer's bias row at every point is the whole bias row. -/
theorem resident_6 (c : Dev nD) (t : Fin cfg1.N) :
    (iblk1 (F := Ideal) V c 6 t : Vec Ideal S1x256 .f32) = (V c main_v49 : S1x256.Idx → Elt Ideal .f32) := by
  obtain ⟨-, -, -, -, -, -, -, -, -, -, -, -, e0, e1, -⟩ := index_maps t
  unfold iblk1
  funext j
  rw [View.read_apply]
  show V c main_v49 _ = V c main_v49 _
  congr 1
  funext a; apply Fin.ext
  match a with
  | ⟨0, _⟩ => show win1_6.index t (0 : Fin 2) * 1 + 1 * (j 0).val = (j 0).val; omega
  | ⟨1, _⟩ => show win1_6.index t (1 : Fin 2) * 256 + 1 * (j 1).val = (j 1).val; omega

/-- The last dense layer's weight column at every point is the whole narrowed weight array. -/
theorem resident_7 (c : Dev nD) (t : Fin cfg1.N) :
    (iblk1 (F := Ideal) V c 7 t : Vec Ideal S256x1 .bf16) = (V c main_v53 : S256x1.Idx → Elt Ideal .bf16) := by
  obtain ⟨-, -, -, -, -, -, -, -, -, -, -, -, -, -, e0, e1, -⟩ := index_maps t
  unfold iblk1
  funext j
  rw [View.read_apply]
  show V c main_v53 _ = V c main_v53 _
  congr 1
  funext a; apply Fin.ext
  match a with
  | ⟨0, _⟩ => show win1_7.index t (0 : Fin 2) * 256 + 1 * (j 0).val = (j 0).val; omega
  | ⟨1, _⟩ => show win1_7.index t (1 : Fin 2) * 1 + 1 * (j 1).val = (j 1).val; omega

/-- The last dense layer's bias entry at every point is the whole one-entry bias array. -/
theorem resident_8 (c : Dev nD) (t : Fin cfg1.N) :
    (iblk1 (F := Ideal) V c 8 t : Vec Ideal S1x1 .f32) = (V c main_v50 : S1x1.Idx → Elt Ideal .f32) := by
  obtain ⟨-, -, -, -, -, -, -, -, -, -, -, -, -, -, -, -, e0, e1, -⟩ := index_maps t
  unfold iblk1
  funext j
  rw [View.read_apply]
  show V c main_v50 _ = V c main_v50 _
  congr 1
  funext a; apply Fin.ext
  match a with
  | ⟨0, _⟩ => show win1_8.index t (0 : Fin 2) * 1 + 1 * (j 0).val = (j 0).val; omega
  | ⟨1, _⟩ => show win1_8.index t (1 : Fin 2) * 1 + 1 * (j 1).val = (j 1).val; omega

/-- What point `t` writes back is block `t` of `Spec.mlp`: the tile's one store covers it, its payload at row `r` is the
    tile's dense layers at row `r`, which is row `2000 t + r` of the dense layers of the whole arrays, and that is where
    row `r` of the result's block sits. -/
theorem written_back (c : Dev nD) (conv x : FVec Ideal S100000x128 .f32) (bg : FVec Ideal S128 .f32)
    (w1 : FVec Ideal S128x512 .f32) (b1 : FVec Ideal S512 .f32) (w2 : FVec Ideal S512x256 .f32) (b2 : FVec Ideal S256 .f32)
    (w3 : FVec Ideal S256x1 .f32) (b3 : FVec Ideal S1 .f32)
    (h46 : V c main_v46 = conv) (h0 : V c main_arg0 = x)
    (h47 : V c main_v47 = shapeCast S1x128 bg shapeCasts_S128_S1x128) (h51 : V c main_v51 = truncf .bf16 w1 bitsLt_bf16_f32)
    (h48 : V c main_v48 = shapeCast S1x512 b1 shapeCasts_S512_S1x512) (h52 : V c main_v52 = truncf .bf16 w2 bitsLt_bf16_f32)
    (h49 : V c main_v49 = shapeCast S1x256 b2 shapeCasts_S256_S1x256) (h53 : V c main_v53 = truncf .bf16 w3 bitsLt_bf16_f32)
    (h50 : V c main_v50 = shapeCast S1x1 b3 shapeCasts_S1_S1x1) (t : Fin cfg1.N) :
    (dat1 (F := Ideal) V c).flushed 9 t
      = ((cfg1.win 9).blk t).view.read (Elt Ideal) (Cert.Spec.mlp (F := Ideal) conv x bg w1 b1 w2 b2 w3 b3) := by
  subst h46 h0
  show (cfg1.win 9).cut (grid1.coords t) ((dat1 V c).after 9 t) = _
  rw [after1_9]
  unfold out1_9
  rw [View.canon_unit_zero zero_offsets]
  simp only [View.ld_unit_zero (S := S2000x128) zero_offsets, View.ld_unit_zero (S := S1x128) zero_offsets,
    View.ld_unit_zero (S := S128x512) zero_offsets, View.ld_unit_zero (S := S1x512) zero_offsets,
    View.ld_unit_zero (S := S512x256) zero_offsets, View.ld_unit_zero (S := S1x256) zero_offsets,
    View.ld_unit_zero (S := S256x1) zero_offsets, View.ld_unit_zero (S := S1x1) zero_offsets]
  have ht : t.val < 50 := by have := t.isLt; have hN : cfg1.N = 50 := N_1; omega
  obtain ⟨-, -, -, -, -, -, -, -, -, -, -, -, -, -, -, -, -, -, e0, e1⟩ := index_maps t
  funext j
  obtain ⟨r, q, rfl⟩ : ∃ (r : Fin 2000) (q : Fin 1), j = ix2 r q := ⟨j 0, j 1, eq_ix2 j⟩
  obtain rfl : q = 0 := Subsingleton.elim _ _
  have hr := r.isLt
  have hemb : ((cfg1.win 9).blk t).view.emb (ix2 r (0 : Fin 1))
      = (ix2 (⟨2000 * t.val + r.val, by omega⟩ : Fin 100000) (0 : Fin 1) : S100000x1.Idx) := by
    funext a; apply Fin.ext
    match a with
    | ⟨0, _⟩ => show win1_9.index t (0 : Fin 2) * 2000 + 1 * r.val = 2000 * t.val + r.val; omega
    | ⟨1, _⟩ => show win1_9.index t (1 : Fin 2) * 1 + 1 * (0 : Fin 1).val = (0 : Fin 1).val; omega
  show k1_pay1 (F := Ideal) (k1_pay2 (iblk1 V c 0 t) (iblk1 V c 2 t) (iblk1 V c 1 t) (iblk1 V c 3 t) (iblk1 V c 4 t)
        (iblk1 V c 5 t) (iblk1 V c 6 t) (iblk1 V c 7 t)) (iblk1 V c 8 t) (ix2 r (0 : Fin 1))
      = Cert.Spec.mlp (F := Ideal) (V c main_v46) (V c main_arg0) bg w1 b1 w2 b2 w3 b3
          (((cfg1.win 9).blk t).view.emb (ix2 r (0 : Fin 1)))
  rw [hemb]
  exact Rows.mlp_rows (iblk1 V c 0 t) (iblk1 V c 1 t) (iblk1 V c 2 t) (iblk1 V c 3 t) (iblk1 V c 4 t) (iblk1 V c 5 t)
    (iblk1 V c 6 t) (iblk1 V c 7 t) (iblk1 V c 8 t) (V c main_v46) (V c main_arg0) bg w1 b1 w2 b2 w3 b3
    (fun r => ⟨2000 * t.val + r.val, by have := r.isLt; omega⟩)
    (fun r k => tile_rows_conv V c t r k _) (fun r k => tile_rows_x V c t r k _)
    ((resident_2 V c t).trans h47) ((resident_3 V c t).trans h51) ((resident_4 V c t).trans h48)
    ((resident_5 V c t).trans h52) ((resident_6 V c t).trans h49) ((resident_7 V c t).trans h53)
    ((resident_8 V c t).trans h50) r

/-- An index of the result array is in point `t`'s block iff each coordinate is in the block's range on its axis. -/
theorem mem_block (t : Fin cfg1.N) (i : S100000x1.Idx) :
    i ∈ ((cfg1.win 9).blk t).view.set ↔ ∀ a : Fin 2, win1_9.index t a * S2000x1.size a ≤ (i a).val
      ∧ (i a).val < win1_9.index t a * S2000x1.size a + S2000x1.size a := by
  show i ∈ ((View.whole main_v54).slice (win1_9.rect t)).set ↔ _
  rw [View.set_slice_whole, Rect.mem_set_unit]
  exact Iff.rfl

/-- The `50` row blocks tile the result array: row `i` is in the block of point `i / 2000`, which is written back. -/
theorem rows_covered (i : S100000x1.Idx) :
    ∃ t : Fin cfg1.N, (cfg1.win 9).flush t = true ∧ i ∈ ((cfg1.win 9).blk t).view.set := by
  have hi0 : (i 0).val < 100000 := (i 0).isLt
  have hi1 : (i 1).val < 1 := (i 1).isLt
  have hN : cfg1.N = 50 := N_1
  obtain ⟨t, ht⟩ : ∃ t : Fin cfg1.N, t.val = (i 0).val / 2000 := ⟨⟨(i 0).val / 2000, by omega⟩, rfl⟩
  obtain ⟨-, -, -, -, -, -, -, -, -, -, -, -, -, -, -, -, -, -, e0, e1⟩ := index_maps t
  refine ⟨t, flush1_9 t, ?_⟩
  rw [mem_block]
  intro a
  match a with
  | ⟨0, _⟩ =>
    show win1_9.index t (0 : Fin 2) * 2000 ≤ (i 0).val ∧ (i 0).val < win1_9.index t (0 : Fin 2) * 2000 + 2000
    omega
  | ⟨1, _⟩ =>
    show win1_9.index t (1 : Fin 2) * 1 ≤ (i 1).val ∧ (i 1).val < win1_9.index t (1 : Fin 2) * 1 + 1
    omega

/-- After the second pipeline its result array is `Spec.mlp` of the aggregated features, the node features and the weights
    whose reshaped or narrowed copies the region finds in its operands. -/
theorem value (c : Dev nD) (conv x : FVec Ideal S100000x128 .f32) (bg : FVec Ideal S128 .f32)
    (w1 : FVec Ideal S128x512 .f32) (b1 : FVec Ideal S512 .f32) (w2 : FVec Ideal S512x256 .f32) (b2 : FVec Ideal S256 .f32)
    (w3 : FVec Ideal S256x1 .f32) (b3 : FVec Ideal S1 .f32)
    (h46 : V c main_v46 = conv) (h0 : V c main_arg0 = x)
    (h47 : V c main_v47 = shapeCast S1x128 bg shapeCasts_S128_S1x128) (h51 : V c main_v51 = truncf .bf16 w1 bitsLt_bf16_f32)
    (h48 : V c main_v48 = shapeCast S1x512 b1 shapeCasts_S512_S1x512) (h52 : V c main_v52 = truncf .bf16 w2 bitsLt_bf16_f32)
    (h49 : V c main_v49 = shapeCast S1x256 b2 shapeCasts_S256_S1x256) (h53 : V c main_v53 = truncf .bf16 w3 bitsLt_bf16_f32)
    (h50 : V c main_v50 = shapeCast S1x1 b3 shapeCasts_S1_S1x1) :
    (dat1 (F := Ideal) V c).arrAt 9 cfg1.N = Cert.Spec.mlp (F := Ideal) conv x bg w1 b1 w2 b2 w3 b3 := by
  exact (dat1 (F := Ideal) V c).arrAt_eq_of_cover 9 (Cert.Spec.mlp (F := Ideal) conv x bg w1 b1 w2 b2 w3 b3)
    (fun t _ => written_back V c conv x bg w1 b1 w2 b2 w3 b3 h46 h0 h47 h51 h48 h52 h49 h53 h50 t) rows_covered

end Cert.KernelIdeal.Mlp

end
-- ==== Proof.HostChain.lean ====
/-
  What the two pipelines find in their operands: the host operations before each region, read back to the arguments.

  Before the first pipeline the host has narrowed the convolution's weight matrix; the node features are an argument.
  Between the pipelines it gathers the rows of the first pipeline's result along the edges' sources, scales each by the
  edge's weight and sums them into the targets (`Spec.aggregate`, the weights and index vectors being what the first host
  stretch computed from the edge list, which the first pipeline does not touch), reshapes the four bias vectors into
  rows and narrows the three dense weight matrices.
-/
import proofs.«180418_j66314295050521_1_alg».proof.Proof.Gen.KernelIdeal.Frame
import proofs.«180418_j66314295050521_1_alg».proof.Proof.Spec
import Idealize.ShloMosaic.Lib.StableHlo.Run

set_option maxRecDepth 16384

noncomputable section

namespace Cert.KernelIdeal.Host

open Idealize.ShloMosaic Idealize.ShloMosaic.TcCoe Idealize.SL.Sem
open Idealize.ShloMosaic.Pipeline (Dat)
open Cert.KernelIdeal Cert.KernelIdeal.Gen

variable {F : FTy → Type} [FloatOps F]
variable (m : (ℓ : Loc nD τ sig) → Buf (Elt F) ℓ) (ρ : Dev nD → PrngReg)

/-- The first pipeline reads the node features as launched. -/
theorem V3_arg0 (c : Dev nD) : V3 m ρ c main_arg0 = (m ((c : Thread nD τ).loc main_arg0)) := by
  show StableHlo.after hostOps0_2 (StableHlo.after hostOps0_1 (StableHlo.after hostOps0 (W0 m ρ c))) (Proc.devRef .tc main_arg0) = _
  after_results

/-- Its weight block is the narrowed weight matrix. -/
theorem V3_v32 (c : Dev nD) : V3 m ρ c main_v32 = truncf .bf16 (m ((c : Thread nD τ).loc main_arg2)) bitsLt_bf16_f32 := by
  show StableHlo.after hostOps0_2 (StableHlo.after hostOps0_1 (StableHlo.after hostOps0 (W0 m ρ c))) (Proc.devRef .tc main_v32) = _
  after_results

/-- The first pipeline and the host operations before it leave the argument `main_arg3` as launched. -/
theorem W4_arg3 (c : Dev nD) : W4 m ρ c (Proc.devRef .tc main_arg3) = (m ((c : Thread nD τ).loc main_arg3)) := by
  rw [W4_of_ne m ρ c main_arg3 (by decide)]
  show StableHlo.after hostOps0_2 (StableHlo.after hostOps0_1 (StableHlo.after hostOps0 (W0 m ρ c))) (Proc.devRef .tc main_arg3) = _
  after_results

/-- The first pipeline and the host operations before it leave the argument `main_arg4` as launched. -/
theorem W4_arg4 (c : Dev nD) : W4 m ρ c (Proc.devRef .tc main_arg4) = (m ((c : Thread nD τ).loc main_arg4)) := by
  rw [W4_of_ne m ρ c main_arg4 (by decide)]
  show StableHlo.after hostOps0_2 (StableHlo.after hostOps0_1 (StableHlo.after hostOps0 (W0 m ρ c))) (Proc.devRef .tc main_arg4) = _
  after_results

/-- The first pipeline and the host operations before it leave the argument `main_arg5` as launched. -/
theorem W4_arg5 (c : Dev nD) : W4 m ρ c (Proc.devRef .tc main_arg5) = (m ((c : Thread nD τ).loc main_arg5)) := by
  rw [W4_of_ne m ρ c main_arg5 (by decide)]
  show StableHlo.after hostOps0_2 (StableHlo.after hostOps0_1 (StableHlo.after hostOps0 (W0 m ρ c))) (Proc.devRef .tc main_arg5) = _
  after_results

/-- The first pipeline and the host operations before it leave the argument `main_arg6` as launched. -/
theorem W4_arg6 (c : Dev nD) : W4 m ρ c (Proc.devRef .tc main_arg6) = (m ((c : Thread nD τ).loc main_arg6)) := by
  rw [W4_of_ne m ρ c main_arg6 (by decide)]
  show StableHlo.after hostOps0_2 (StableHlo.after hostOps0_1 (StableHlo.after hostOps0 (W0 m ρ c))) (Proc.devRef .tc main_arg6) = _
  after_results

/-- The first pipeline and the host operations before it leave the argument `main_arg7` as launched. -/
theorem W4_arg7 (c : Dev nD) : W4 m ρ c (Proc.devRef .tc main_arg7) = (m ((c : Thread nD τ).loc main_arg7)) := by
  rw [W4_of_ne m ρ c main_arg7 (by decide)]
  show StableHlo.after hostOps0_2 (StableHlo.after hostOps0_1 (StableHlo.after hostOps0 (W0 m ρ c))) (Proc.devRef .tc main_arg7) = _
  after_results

/-- The first pipeline and the host operations before it leave the argument `main_arg8` as launched. -/
theorem W4_arg8 (c : Dev nD) : W4 m ρ c (Proc.devRef .tc main_arg8) = (m ((c : Thread nD τ).loc main_arg8)) := by
  rw [W4_of_ne m ρ c main_arg8 (by decide)]
  show StableHlo.after hostOps0_2 (StableHlo.after hostOps0_1 (StableHlo.after hostOps0 (W0 m ρ c))) (Proc.devRef .tc main_arg8) = _
  after_results

/-- The first pipeline and the host operations before it leave the argument `main_arg9` as launched. -/
theorem W4_arg9 (c : Dev nD) : W4 m ρ c (Proc.devRef .tc main_arg9) = (m ((c : Thread nD τ).loc main_arg9)) := by
  rw [W4_of_ne m ρ c main_arg9 (by decide)]
  show StableHlo.after hostOps0_2 (StableHlo.after hostOps0_1 (StableHlo.after hostOps0 (W0 m ρ c))) (Proc.devRef .tc main_arg9) = _
  after_results

/-- The edges' sources, as the host computed them before the first pipeline. -/
theorem W3_v3 (c : Dev nD) : W3 m ρ c (Proc.devRef .tc main_v3) = Cert.Spec.endpoints0 (F := F) (m ((c : Thread nD τ).loc main_arg1)) := by
  show StableHlo.after hostOps0_2 (StableHlo.after hostOps0_1 (StableHlo.after hostOps0 (W0 m ρ c))) (Proc.devRef .tc main_v3) = _
  after_results
  rfl

/-- The edges' targets. -/
theorem W3_v6 (c : Dev nD) : W3 m ρ c (Proc.devRef .tc main_v6) = Cert.Spec.endpoints1 (F := F) (m ((c : Thread nD τ).loc main_arg1)) := by
  show StableHlo.after hostOps0_2 (StableHlo.after hostOps0_1 (StableHlo.after hostOps0 (W0 m ρ c))) (Proc.devRef .tc main_v6) = _
  after_results
  rfl

set_option maxHeartbeats 4000000 in
/-- The edges' weights: the product of the two endpoints' inverse square-root degrees. -/
theorem W3_v31 (c : Dev nD) : W3 m ρ c (Proc.devRef .tc main_v31) = Cert.Spec.edgeNorm (F := F) (m ((c : Thread nD τ).loc main_arg1)) := by
  show StableHlo.after hostOps0_2 (StableHlo.after hostOps0_1 (StableHlo.after hostOps0 (W0 m ρ c))) (Proc.devRef .tc main_v31) = _
  after_results_simp
  rfl

set_option maxHeartbeats 4000000 in
/-- The second pipeline's first operand is the aggregation of the first pipeline's result along the edge list. -/
theorem V5_v46 (c : Dev nD) :
    V5 m ρ c main_v46 = Cert.Spec.aggregate (F := F) (m ((c : Thread nD τ).loc main_arg1)) (W4 m ρ c (Proc.devRef .tc main_v33)) := by
  show StableHlo.after hostOps1 (W4 m ρ c) (Proc.devRef .tc main_v46) = _
  after_results_simp
  rw [W4_of_ne m ρ c main_v3 (by decide), W4_of_ne m ρ c main_v6 (by decide), W4_of_ne m ρ c main_v31 (by decide),
    W3_v3 m ρ c, W3_v6 m ρ c, W3_v31 m ρ c]
  rfl

/-- It reads the node features as launched. -/
theorem V5_arg0 (c : Dev nD) : V5 m ρ c main_arg0 = (m ((c : Thread nD τ).loc main_arg0)) := by
  show StableHlo.after hostOps1 (W4 m ρ c) (Proc.devRef .tc main_arg0) = _
  after_results
  exact ((W4_arr m ρ c 0).trans (((dat0 (V3 m ρ) c).arrAt_in 0 rfl _).trans (A_eq0 (V3 m ρ) c 0))).trans (V3_arg0 m ρ c)

theorem V5_v47 (c : Dev nD) : V5 m ρ c main_v47 = shapeCast S1x128 (m ((c : Thread nD τ).loc main_arg3)) shapeCasts_S128_S1x128 := by
  show StableHlo.after hostOps1 (W4 m ρ c) (Proc.devRef .tc main_v47) = _
  after_results
  rw [W4_arg3 m ρ c]
  rfl

theorem V5_v51 (c : Dev nD) : V5 m ρ c main_v51 = truncf .bf16 (m ((c : Thread nD τ).loc main_arg4)) bitsLt_bf16_f32 := by
  show StableHlo.after hostOps1 (W4 m ρ c) (Proc.devRef .tc main_v51) = _
  after_results
  rw [W4_arg4 m ρ c]

theorem V5_v48 (c : Dev nD) : V5 m ρ c main_v48 = shapeCast S1x512 (m ((c : Thread nD τ).loc main_arg5)) shapeCasts_S512_S1x512 := by
  show StableHlo.after hostOps1 (W4 m ρ c) (Proc.devRef .tc main_v48) = _
  after_results
  rw [W4_arg5 m ρ c]
  rfl

theorem V5_v52 (c : Dev nD) : V5 m ρ c main_v52 = truncf .bf16 (m ((c : Thread nD τ).loc main_arg6)) bitsLt_bf16_f32 := by
  show StableHlo.after hostOps1 (W4 m ρ c) (Proc.devRef .tc main_v52) = _
  after_results
  rw [W4_arg6 m ρ c]

theorem V5_v49 (c : Dev nD) : V5 m ρ c main_v49 = shapeCast S1x256 (m ((c : Thread nD τ).loc main_arg7)) shapeCasts_S256_S1x256 := by
  show StableHlo.after hostOps1 (W4 m ρ c) (Proc.devRef .tc main_v49) = _
  after_results
  rw [W4_arg7 m ρ c]
  rfl

theorem V5_v53 (c : Dev nD) : V5 m ρ c main_v53 = truncf .bf16 (m ((c : Thread nD τ).loc main_arg8)) bitsLt_bf16_f32 := by
  show StableHlo.after hostOps1 (W4 m ρ c) (Proc.devRef .tc main_v53) = _
  after_results
  rw [W4_arg8 m ρ c]

theorem V5_v50 (c : Dev nD) : V5 m ρ c main_v50 = shapeCast S1x1 (m ((c : Thread nD τ).loc main_arg9)) shapeCasts_S1_S1x1 := by
  show StableHlo.after hostOps1 (W4 m ρ c) (Proc.devRef .tc main_v50) = _
  after_results
  rw [W4_arg9 m ρ c]
  rfl

end Cert.KernelIdeal.Host

end
-- ==== Proof.lean ====
/-
  A graph convolution and three dense layers, tiled: the kernel program equals the plain program over the extended reals.

  Both programs compute, from the edge list, the same edge weights and index vectors by the same host operations, and
  both aggregate along the edges by the same gather, scaling and scatter-add. They differ in two places. The kernel
  program computes `x · W` in a pipeline over `50` tiles of `2000` rows, each tile's product taken on the matrix unit
  from bf16-narrowed operands; the plain program takes one `dot_general`. And the kernel program runs the bias,
  rectifier, residual and the three dense layers in a second pipeline over the same `50` row tiles, where the plain
  program applies whole-array operations. Over the extended reals narrowing is the identity and every product is the
  textbook sum over the contracted index; every operation of the second pipeline acts on a row by itself; and the `50`
  row blocks tile each result array. So both programs end with `Spec.network` of the ten argument arrays: no algebraic
  law joins the two sides beyond reading the same sums, and finiteness of the inputs is never used.

  The three frames: the kernel program's two are the generated frame certificates; the plain program's is its run with
  the result dropped. The idealization rewrote nothing, so `preserves` is trivial.
-/
import proofs.«180418_j66314295050521_1_alg».proof.Defs
import proofs.«180418_j66314295050521_1_alg».proof.Proof.Gen.Kernel
import proofs.«180418_j66314295050521_1_alg».proof.Proof.Gen.Kernel.Frame
import proofs.«180418_j66314295050521_1_alg».proof.Proof.Gen.KernelIdeal
import proofs.«180418_j66314295050521_1_alg».proof.Proof.Gen.KernelIdeal.Frame
import proofs.«180418_j66314295050521_1_alg».proof.Proof.Gen.ReferenceIdeal
import proofs.«180418_j66314295050521_1_alg».proof.Proof.Gen.Pre_finite_inputs
import proofs.«180418_j66314295050521_1_alg».proof.Proof.KernelRun
import proofs.«180418_j66314295050521_1_alg».proof.Proof.RefSpec
import proofs.«180418_j66314295050521_1_alg».proof.Proof.Region0
import proofs.«180418_j66314295050521_1_alg».proof.Proof.Region1
import proofs.«180418_j66314295050521_1_alg».proof.Proof.HostChain
import Idealize.ShloMosaic.Adequacy
import Idealize.ShloMosaic.Init

noncomputable section

namespace Cert.Proof

open Idealize.ShloMosaic Idealize.ShloMosaic.TcCoe Idealize.SL.Sem

section KernelValue

open Cert.KernelIdeal Cert.KernelIdeal.Gen

variable (m : (ℓ : Loc nD τ sig) → Buf (Elt Ideal) ℓ) (ρ : Dev nD → PrngReg)

/-- What the kernel program's result array holds at the return: the second pipeline leaves `Spec.mlp` of its operands,
    its first operand is the aggregation of the first pipeline's result, and that result is `x · W`. -/
theorem kernel_value (c : Dev nD) :
    W6 m ρ c (Proc.devRef .tc main_v54)
      = Cert.Spec.network (F := Ideal) (m ((c.tc : Thread nD τ).loc main_arg0))
          (m ((c.tc : Thread nD τ).loc main_arg1))
          (m ((c.tc : Thread nD τ).loc main_arg2))
          (m ((c.tc : Thread nD τ).loc main_arg3))
          (m ((c.tc : Thread nD τ).loc main_arg4))
          (m ((c.tc : Thread nD τ).loc main_arg5))
          (m ((c.tc : Thread nD τ).loc main_arg6))
          (m ((c.tc : Thread nD τ).loc main_arg7))
          (m ((c.tc : Thread nD τ).loc main_arg8))
          (m ((c.tc : Thread nD τ).loc main_arg9)) := by
  have h1 : W6 m ρ c (Proc.devRef .tc main_v54) = (dat1 (V5 m ρ) c).arrAt 9 cfg1.N := W6_arr m ρ c 9
  have h2 : W4 m ρ c (Proc.devRef .tc main_v33) = (dat0 (V3 m ρ) c).arrAt 2 cfg0.N := W4_arr m ρ c 2
  rw [h1, Cert.KernelIdeal.Mlp.value (V5 m ρ) c _ _ _ _ _ _ _ _ _ (Cert.KernelIdeal.Host.V5_v46 m ρ c)
    (Cert.KernelIdeal.Host.V5_arg0 m ρ c) (Cert.KernelIdeal.Host.V5_v47 m ρ c) (Cert.KernelIdeal.Host.V5_v51 m ρ c)
    (Cert.KernelIdeal.Host.V5_v48 m ρ c) (Cert.KernelIdeal.Host.V5_v52 m ρ c) (Cert.KernelIdeal.Host.V5_v49 m ρ c)
    (Cert.KernelIdeal.Host.V5_v53 m ρ c) (Cert.KernelIdeal.Host.V5_v50 m ρ c),
    h2, Cert.KernelIdeal.Linear.value (V3 m ρ) c _ _ (Cert.KernelIdeal.Host.V3_arg0 m ρ c) (Cert.KernelIdeal.Host.V3_v32 m ρ c)]
  rfl

end KernelValue

theorem frame_kernel : Cert.frame_Kernel := fun m ρ _ => Cert.Kernel.Gen.frame m ρ

theorem frame_kernelIdeal : Cert.frame_KernelIdeal := fun m ρ _ => Cert.KernelIdeal.Gen.frame m ρ

/-- The plain program's frame is its run with the result dropped. -/
theorem frame_referenceIdeal : Cert.frame_ReferenceIdeal := fun m ρ _ =>
  (θ_run Cert.ReferenceIdeal.defs _ _).mono (fun _ h c => (h c).2) (Cert.ReferenceIdeal.ValueP.run (F := Ideal) m ρ)

theorem preserves : Cert.preserves_Kernel_KernelIdeal := trivial

/-- Both runs end with `Spec.network` of the argument arrays, on which the two memories agree. -/
theorem algebraic : Cert.algebraic_KernelIdeal_ReferenceIdeal := by
  intro m ρ m' ρ' _ hagree
  refine ⟨fun c => Cert.Spec.network (F := Ideal) (m ((c.tc : Thread Cert.KernelIdeal.nD Cert.KernelIdeal.τ).loc Cert.KernelIdeal.main_arg0))
      (m ((c.tc : Thread Cert.KernelIdeal.nD Cert.KernelIdeal.τ).loc Cert.KernelIdeal.main_arg1))
      (m ((c.tc : Thread Cert.KernelIdeal.nD Cert.KernelIdeal.τ).loc Cert.KernelIdeal.main_arg2))
      (m ((c.tc : Thread Cert.KernelIdeal.nD Cert.KernelIdeal.τ).loc Cert.KernelIdeal.main_arg3))
      (m ((c.tc : Thread Cert.KernelIdeal.nD Cert.KernelIdeal.τ).loc Cert.KernelIdeal.main_arg4))
      (m ((c.tc : Thread Cert.KernelIdeal.nD Cert.KernelIdeal.τ).loc Cert.KernelIdeal.main_arg5))
      (m ((c.tc : Thread Cert.KernelIdeal.nD Cert.KernelIdeal.τ).loc Cert.KernelIdeal.main_arg6))
      (m ((c.tc : Thread Cert.KernelIdeal.nD Cert.KernelIdeal.τ).loc Cert.KernelIdeal.main_arg7))
      (m ((c.tc : Thread Cert.KernelIdeal.nD Cert.KernelIdeal.τ).loc Cert.KernelIdeal.main_arg8))
      (m ((c.tc : Thread Cert.KernelIdeal.nD Cert.KernelIdeal.τ).loc Cert.KernelIdeal.main_arg9)), ?_, ?_⟩
  · exact (θ_run Cert.KernelIdeal.defs _ _).mono (fun _ h c => ⟨(h c).1.trans (kernel_value m ρ c), (h c).2⟩)
      (Cert.KernelIdeal.RunV.run (F := Ideal) m ρ)
  · refine (θ_run Cert.ReferenceIdeal.defs _ _).mono (fun _ h c => ⟨(h c).1.trans ?_, (h c).2⟩)
      (Cert.ReferenceIdeal.ValueP.run (F := Ideal) m' ρ')
    obtain ⟨e0, e1, e2, e3, e4, e5, e6, e7, e8, e9⟩ := hagree c
    rw [Cert.Spec.res_eq, e0, e1, e2, e3, e4, e5, e6, e7, e8, e9]

theorem claim : Cert.Claim :=
  ⟨Cert.Kernel.Gen.facts, Cert.KernelIdeal.Gen.facts, Cert.ReferenceIdeal.Gen.facts, Cert.Pre_finite_inputs.Gen.facts,
    frame_kernel, frame_kernelIdeal, frame_referenceIdeal, preserves, algebraic⟩

end Cert.Proof

end
